-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x15x64x128x1 : Shape := ⟨5, ![256, 15, 64, 128, 1]⟩
abbrev S3584x3 : Shape := ⟨2, ![3584, 3]⟩
abbrev S3584 : Shape := ⟨1, ![3584]⟩
abbrev S2720x3 : Shape := ⟨2, ![2720, 3]⟩
abbrev S2720 : Shape := ⟨1, ![2720]⟩
abbrev S2880x3 : Shape := ⟨2, ![2880, 3]⟩
abbrev S2880 : Shape := ⟨1, ![2880]⟩
abbrev S_ : Shape := ⟨0, ![]⟩

class Facts : Prop where
  bcast_S_S256x15x64x128x1 : S_.BroadcastsInDim S256x15x64x128x1 (![] : Fin 0 → Fin S256x15x64x128x1.rank)
  reducesTo_S256x15x64x128x1_S_d0_1_2_3_4 : S256x15x64x128x1.ReducesTo [0, 1, 2, 3, 4] S_
  h_S_ : 0 < S_.numel
  bcast_S_S3584x3 : S_.BroadcastsInDim S3584x3 (![] : Fin 0 → Fin S3584x3.rank)
  reducesTo_S3584x3_S_d0_1 : S3584x3.ReducesTo [0, 1] S_
  bcast_S_S3584 : S_.BroadcastsInDim S3584 (![] : Fin 0 → Fin S3584.rank)
  reducesTo_S3584_S_d0 : S3584.ReducesTo [0] S_
  bcast_S_S2720x3 : S_.BroadcastsInDim S2720x3 (![] : Fin 0 → Fin S2720x3.rank)
  reducesTo_S2720x3_S_d0_1 : S2720x3.ReducesTo [0, 1] S_
  bcast_S_S2720 : S_.BroadcastsInDim S2720 (![] : Fin 0 → Fin S2720.rank)
  reducesTo_S2720_S_d0 : S2720.ReducesTo [0] S_
  bcast_S_S2880x3 : S_.BroadcastsInDim S2880x3 (![] : Fin 0 → Fin S2880x3.rank)
  reducesTo_S2880x3_S_d0_1 : S2880x3.ReducesTo [0, 1] S_
  bcast_S_S2880 : S_.BroadcastsInDim S2880 (![] : Fin 0 → Fin S2880.rank)
  reducesTo_S2880_S_d0 : S2880.ReducesTo [0] S_

variable [Facts]

def fn_part1 {F : FTy → Type} [FloatOps F] (main_arg4 : FVec F S2720 .f32) (main_arg5 : FVec F S2880x3 .f32) (main_arg6 : FVec F S2880 .f32) (main_v13 : IVec S_ 1) (main_v16 : IVec S2720x3 1) : IVec S_ 1 :=
  let main_c_5 : IVec S_ 1 := constantI S_ 1 1#1
  let main_v17 : IVec S_ 1 := (fun x v => Host.reduce IntOp.andi x v reducesTo_S2720x3_S_d0_1 h_S_) main_v16 main_c_5
  let main_v18 : IVec S_ 1 := andi main_v13 main_v17
  let main_v19 : FVec F S2720 .f32 := Host.absf main_arg4
  let main_cst_6 : FVec F S_ .f32 := constant S_ .f32 0x7F800000#32
  let main_v20 : FVec F S2720 .f32 := broadcastInDim S2720 ![] bcast_S_S2720 main_cst_6
  let main_v21 : IVec S2720 1 := cmpf .olt main_v19 main_v20
  let main_c_7 : IVec S_ 1 := constantI S_ 1 1#1
  let main_v22 : IVec S_ 1 := (fun x v => Host.reduce IntOp.andi x v reducesTo_S2720_S_d0 h_S_) main_v21 main_c_7
  let main_v23 : IVec S_ 1 := andi main_v18 main_v22
  let main_v24 : FVec F S2880x3 .f32 := Host.absf main_arg5
  let main_cst_8 : FVec F S_ .f32 := constant S_ .f32 0x7F800000#32
  let main_v25 : FVec F S2880x3 .f32 := broadcastInDim S2880x3 ![] bcast_S_S2880x3 main_cst_8
  let main_v26 : IVec S2880x3 1 := cmpf .olt main_v24 main_v25
  let main_c_9 : IVec S_ 1 := constantI S_ 1 1#1
  let main_v27 : IVec S_ 1 := (fun x v => Host.reduce IntOp.andi x v reducesTo_S2880x3_S_d0_1 h_S_) main_v26 main_c_9
  let main_v28 : IVec S_ 1 := andi main_v23 main_v27
  let main_v29 : FVec F S2880 .f32 := Host.absf main_arg6
  let main_cst_10 : FVec F S_ .f32 := constant S_ .f32 0x7F800000#32
  let main_v30 : FVec F S2880 .f32 := broadcastInDim S2880 ![] bcast_S_S2880 main_cst_10
  let main_v31 : IVec S2880 1 := cmpf .olt main_v29 main_v30
  let main_c_11 : IVec S_ 1 := constantI S_ 1 1#1
  let main_v32 : IVec S_ 1 := (fun x v => Host.reduce IntOp.andi x v reducesTo_S2880_S_d0 h_S_) main_v31 main_c_11
  let main_v33 : IVec S_ 1 := andi main_v28 main_v32
  main_v33

def fn {F : FTy → Type} [FloatOps F] (main_arg0 : FVec F S256x15x64x128x1 .f32) (main_arg1 : FVec F S3584x3 .f32) (main_arg2 : FVec F S3584 .f32) (main_arg3 : FVec F S2720x3 .f32) (main_arg4 : FVec F S2720 .f32) (main_arg5 : FVec F S2880x3 .f32) (main_arg6 : FVec F S2880 .f32) : IVec S_ 1 :=
  let main_v0 : FVec F S256x15x64x128x1 .f32 := Host.absf main_arg0
  let main_cst : FVec F S_ .f32 := constant S_ .f32 0x7F800000#32
  let main_v1 : FVec F S256x15x64x128x1 .f32 := broadcastInDim S256x15x64x128x1 ![] bcast_S_S256x15x64x128x1 main_cst
  let main_v2 : IVec S256x15x64x128x1 1 := cmpf .olt main_v0 main_v1
  let main_c : IVec S_ 1 := constantI S_ 1 1#1
  let main_v3 : IVec S_ 1 := (fun x v => Host.reduce IntOp.andi x v reducesTo_S256x15x64x128x1_S_d0_1_2_3_4 h_S_) main_v2 main_c
  let main_v4 : FVec F S3584x3 .f32 := Host.absf main_arg1
  let main_cst_0 : FVec F S_ .f32 := constant S_ .f32 0x7F800000#32
  let main_v5 : FVec F S3584x3 .f32 := broadcastInDim S3584x3 ![] bcast_S_S3584x3 main_cst_0
  let main_v6 : IVec S3584x3 1 := cmpf .olt main_v4 main_v5
  let main_c_1 : IVec S_ 1 := constantI S_ 1 1#1
  let main_v7 : IVec S_ 1 := (fun x v => Host.reduce IntOp.andi x v reducesTo_S3584x3_S_d0_1 h_S_) main_v6 main_c_1
  let main_v8 : IVec S_ 1 := andi main_v3 main_v7
  let main_v9 : FVec F S3584 .f32 := Host.absf main_arg2
  let main_cst_2 : FVec F S_ .f32 := constant S_ .f32 0x7F800000#32
  let main_v10 : FVec F S3584 .f32 := broadcastInDim S3584 ![] bcast_S_S3584 main_cst_2
  let main_v11 : IVec S3584 1 := cmpf .olt main_v9 main_v10
  let main_c_3 : IVec S_ 1 := constantI S_ 1 1#1
  let main_v12 : IVec S_ 1 := (fun x v => Host.reduce IntOp.andi x v reducesTo_S3584_S_d0 h_S_) main_v11 main_c_3
  let main_v13 : IVec S_ 1 := andi main_v8 main_v12
  let main_v14 : FVec F S2720x3 .f32 := Host.absf main_arg3
  let main_cst_4 : FVec F S_ .f32 := constant S_ .f32 0x7F800000#32
  let main_v15 : FVec F S2720x3 .f32 := broadcastInDim S2720x3 ![] bcast_S_S2720x3 main_cst_4
  let main_v16 : IVec S2720x3 1 := cmpf .olt main_v14 main_v15
  fn_part1 (F := F) main_arg4 main_arg5 main_arg6 main_v13 main_v16
-- ==== Kernel.lean ====
abbrev S256x15x64x128x1 : Shape := ⟨5, ![256, 15, 64, 128, 1]⟩
abbrev S3584x3 : Shape := ⟨2, ![3584, 3]⟩
abbrev S3584 : Shape := ⟨1, ![3584]⟩
abbrev S2720x3 : Shape := ⟨2, ![2720, 3]⟩
abbrev S2720 : Shape := ⟨1, ![2720]⟩
abbrev S2880x3 : Shape := ⟨2, ![2880, 3]⟩
abbrev S2880 : Shape := ⟨1, ![2880]⟩
abbrev S256x5x3x16x4x32x4x1 : Shape := ⟨8, ![256, 5, 3, 16, 4, 32, 4, 1]⟩
abbrev S_ : Shape := ⟨0, ![]⟩
abbrev S256x5x16x32x1 : Shape := ⟨5, ![256, 5, 16, 32, 1]⟩
abbrev S256x7x16x32x1 : Shape := ⟨5, ![256, 7, 16, 32, 1]⟩
abbrev S256x32x16x7x1 : Shape := ⟨5, ![256, 32, 16, 7, 1]⟩
abbrev S256x3584 : Shape := ⟨2, ![256, 3584]⟩
abbrev S256x3586 : Shape := ⟨2, ![256, 3586]⟩
abbrev S3x3584 : Shape := ⟨2, ![3, 3584]⟩
abbrev S1x3584 : Shape := ⟨2, ![1, 3584]⟩
abbrev S4x3584 : Shape := ⟨2, ![4, 3584]⟩
abbrev S128x3586 : Shape := ⟨2, ![128, 3586]⟩
abbrev S128x3584 : Shape := ⟨2, ![128, 3584]⟩
abbrev S256x5x16x34x1 : Shape := ⟨5, ![256, 5, 16, 34, 1]⟩
abbrev S256x2720 : Shape := ⟨2, ![256, 2720]⟩
abbrev S256x2722 : Shape := ⟨2, ![256, 2722]⟩
abbrev S3x2720 : Shape := ⟨2, ![3, 2720]⟩
abbrev S1x2720 : Shape := ⟨2, ![1, 2720]⟩
abbrev S4x2720 : Shape := ⟨2, ![4, 2720]⟩
abbrev S128x2722 : Shape := ⟨2, ![128, 2722]⟩
abbrev S128x2720 : Shape := ⟨2, ![128, 2720]⟩
abbrev S256x5x18x32x1 : Shape := ⟨5, ![256, 5, 18, 32, 1]⟩
abbrev S256x5x32x18x1 : Shape := ⟨5, ![256, 5, 32, 18, 1]⟩
abbrev S256x2880 : Shape := ⟨2, ![256, 2880]⟩
abbrev S256x2882 : Shape := ⟨2, ![256, 2882]⟩
abbrev S3x2880 : Shape := ⟨2, ![3, 2880]⟩
abbrev S1x2880 : Shape := ⟨2, ![1, 2880]⟩
abbrev S4x2880 : Shape := ⟨2, ![4, 2880]⟩
abbrev S128x2882 : Shape := ⟨2, ![128, 2882]⟩
abbrev S128x2880 : Shape := ⟨2, ![128, 2880]⟩
abbrev S256x5x1x16x1x32x1x1 : Shape := ⟨8, ![256, 5, 1, 16, 1, 32, 1, 1]⟩

abbrev nBuf : Space → Nat
  | .hbm => 59
  | .vmem => 15
  | .smem => 0
  | _ => 0

abbrev bufTy : (tb : Table) → Fin (tcTables nBuf tb) → BufTy
  | .hbm, ⟨0, _⟩ => ⟨S256x15x64x128x1, .f32⟩
  | .hbm, ⟨1, _⟩ => ⟨S3584x3, .f32⟩
  | .hbm, ⟨2, _⟩ => ⟨S3584, .f32⟩
  | .hbm, ⟨3, _⟩ => ⟨S2720x3, .f32⟩
  | .hbm, ⟨4, _⟩ => ⟨S2720, .f32⟩
  | .hbm, ⟨5, _⟩ => ⟨S2880x3, .f32⟩
  | .hbm, ⟨6, _⟩ => ⟨S2880, .f32⟩
  | .hbm, ⟨7, _⟩ => ⟨S256x5x3x16x4x32x4x1, .f32⟩
  | .hbm, ⟨8, _⟩ => ⟨S_, .f32⟩
  | .hbm, ⟨9, _⟩ => ⟨S256x5x16x32x1, .f32⟩
  | .hbm, ⟨10, _⟩ => ⟨S_, .f32⟩
  | .hbm, ⟨11, _⟩ => ⟨S256x5x16x32x1, .f32⟩
  | .hbm, ⟨12, _⟩ => ⟨S256x5x16x32x1, .f32⟩
  | .hbm, ⟨13, _⟩ => ⟨S_, .i32⟩
  | .hbm, ⟨14, _⟩ => ⟨S_, .f32⟩
  | .hbm, ⟨15, _⟩ => ⟨S256x7x16x32x1, .f32⟩
  | .hbm, ⟨16, _⟩ => ⟨S256x32x16x7x1, .f32⟩
  | .hbm, ⟨17, _⟩ => ⟨S256x3584, .f32⟩
  | .hbm, ⟨18, _⟩ => ⟨S_, .i32⟩
  | .hbm, ⟨19, _⟩ => ⟨S_, .f32⟩
  | .hbm, ⟨20, _⟩ => ⟨S256x3586, .f32⟩
  | .hbm, ⟨21, _⟩ => ⟨S3x3584, .f32⟩
  | .hbm, ⟨22, _⟩ => ⟨S1x3584, .f32⟩
  | .hbm, ⟨23, _⟩ => ⟨S4x3584, .f32⟩
  | .hbm, ⟨24, _⟩ => ⟨S256x3584, .f32⟩
  | .hbm, ⟨25, _⟩ => ⟨S256x32x16x7x1, .f32⟩
  | .hbm, ⟨26, _⟩ => ⟨S256x7x16x32x1, .f32⟩
  | .hbm, ⟨27, _⟩ => ⟨S256x5x16x32x1, .f32⟩
  | .hbm, ⟨28, _⟩ => ⟨S_, .i32⟩
  | .hbm, ⟨29, _⟩ => ⟨S_, .f32⟩
  | .hbm, ⟨30, _⟩ => ⟨S256x5x16x34x1, .f32⟩
  | .hbm, ⟨31, _⟩ => ⟨S256x2720, .f32⟩
  | .hbm, ⟨32, _⟩ => ⟨S_, .i32⟩
  | .hbm, ⟨33, _⟩ => ⟨S_, .f32⟩
  | .hbm, ⟨34, _⟩ => ⟨S256x2722, .f32⟩
  | .hbm, ⟨35, _⟩ => ⟨S3x2720, .f32⟩
  | .hbm, ⟨36, _⟩ => ⟨S1x2720, .f32⟩
  | .hbm, ⟨37, _⟩ => ⟨S4x2720, .f32⟩
  | .hbm, ⟨38, _⟩ => ⟨S256x2720, .f32⟩
  | .hbm, ⟨39, _⟩ => ⟨S256x5x16x34x1, .f32⟩
  | .hbm, ⟨40, _⟩ => ⟨S256x5x16x32x1, .f32⟩
  | .hbm, ⟨41, _⟩ => ⟨S_, .i32⟩
  | .hbm, ⟨42, _⟩ => ⟨S_, .f32⟩
  | .hbm, ⟨43, _⟩ => ⟨S256x5x18x32x1, .f32⟩
  | .hbm, ⟨44, _⟩ => ⟨S256x5x32x18x1, .f32⟩
  | .hbm, ⟨45, _⟩ => ⟨S256x2880, .f32⟩
  | .hbm, ⟨46, _⟩ => ⟨S_, .i32⟩
  | .hbm, ⟨47, _⟩ => ⟨S_, .f32⟩
  | .hbm, ⟨48, _⟩ => ⟨S256x2882, .f32⟩
  | .hbm, ⟨49, _⟩ => ⟨S3x2880, .f32⟩
  | .hbm, ⟨50, _⟩ => ⟨S1x2880, .f32⟩
  | .hbm, ⟨51, _⟩ => ⟨S4x2880, .f32⟩
  | .hbm, ⟨52, _⟩ => ⟨S256x2880, .f32⟩
  | .hbm, ⟨53, _⟩ => ⟨S256x5x32x18x1, .f32⟩
  | .hbm, ⟨54, _⟩ => ⟨S256x5x18x32x1, .f32⟩
  | .hbm, ⟨55, _⟩ => ⟨S256x5x16x32x1, .f32⟩
  | .hbm, ⟨56, _⟩ => ⟨S256x5x1x16x1x32x1x1, .f32⟩
  | .hbm, ⟨57, _⟩ => ⟨S256x5x3x16x4x32x4x1, .f32⟩
  | .hbm, ⟨58, _⟩ => ⟨S256x15x64x128x1, .f32⟩
  | .local _ .vmem, ⟨0, _⟩ => ⟨S128x3586, .f32⟩
  | .local _ .vmem, ⟨1, _⟩ => ⟨S128x3586, .f32⟩
  | .local _ .vmem, ⟨2, _⟩ => ⟨S4x3584, .f32⟩
  | .local _ .vmem, ⟨3, _⟩ => ⟨S128x3584, .f32⟩
  | .local _ .vmem, ⟨4, _⟩ => ⟨S128x3584, .f32⟩
  | .local _ .vmem, ⟨5, _⟩ => ⟨S128x2722, .f32⟩
  | .local _ .vmem, ⟨6, _⟩ => ⟨S128x2722, .f32⟩
  | .local _ .vmem, ⟨7, _⟩ => ⟨S4x2720, .f32⟩
  | .local _ .vmem, ⟨8, _⟩ => ⟨S128x2720, .f32⟩
  | .local _ .vmem, ⟨9, _⟩ => ⟨S128x2720, .f32⟩
  | .local _ .vmem, ⟨10, _⟩ => ⟨S128x2882, .f32⟩
  | .local _ .vmem, ⟨11, _⟩ => ⟨S128x2882, .f32⟩
  | .local _ .vmem, ⟨12, _⟩ => ⟨S4x2880, .f32⟩
  | .local _ .vmem, ⟨13, _⟩ => ⟨S128x2880, .f32⟩
  | .local _ .vmem, ⟨14, _⟩ => ⟨S128x2880, .f32⟩
  | _, _ => ⟨S256x15x64x128x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_call2_v0 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_call3_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_call4_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_call5_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3586 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x2722 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x2720 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x2720 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x2882 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x2880 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x2880 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S256x15x64x128x1_S256x5x3x16x4x32x4x1 : S256x15x64x128x1.ShapeCasts S256x5x3x16x4x32x4x1
  reducesTo_S256x5x3x16x4x32x4x1_S256x5x16x32x1_d2_4_6 : S256x5x3x16x4x32x4x1.ReducesTo [2, 4, 6] S256x5x16x32x1
  h_S_ : 0 < S_.numel
  bcast_S_S256x5x16x32x1 : S_.BroadcastsInDim S256x5x16x32x1 (![] : Fin 0 → Fin S256x5x16x32x1.rank)
  pads_S256x5x16x32x1_S256x7x16x32x1_000_110_000_000_000 : S256x5x16x32x1.Pads (![0, 1, 0, 0, 0] : Fin 5 → Nat) ![0, 1, 0, 0, 0] ![0, 0, 0, 0, 0] S256x7x16x32x1
  transposes_S256x7x16x32x1_S256x32x16x7x1_0_3_2_1_4 : S256x7x16x32x1.Transposes [0, 3, 2, 1, 4] S256x32x16x7x1
  shapeCasts_S256x32x16x7x1_S256x3584 : S256x32x16x7x1.ShapeCasts S256x3584
  pads_S256x3584_S256x3586_000_110 : S256x3584.Pads (![0, 1] : Fin 2 → Nat) ![0, 1] ![0, 0] S256x3586
  transposes_S3584x3_S3x3584_1_0 : S3584x3.Transposes [1, 0] S3x3584
  shapeCasts_S3584_S1x3584 : S3584.ShapeCasts S1x3584
  concatenates_S3x3584_S1x3584_S4x3584_d0 : Shape.Concatenates [S3x3584, S1x3584] S4x3584 0
  inb_S128x3586_S128x3586_0_0 : ∀ a, (![0, 0] : Fin 2 → Nat) a + S128x3586.size a ≤ S128x3586.size a
  h_S128x3586 : 0 < S128x3586.numel
  shapeCasts_S128x3586_S128x3586 : S128x3586.ShapeCasts S128x3586
  inb_S4x3584_S1x3584_0_0 : ∀ a, (![0, 0] : Fin 2 → Nat) a + S1x3584.size a ≤ S4x3584.size a
  h_S1x3584 : 0 < S1x3584.numel
  shapeCasts_S1x3584_S1x3584 : S1x3584.ShapeCasts S1x3584
  inb_S4x3584_S1x3584_1_0 : ∀ a, (![1, 0] : Fin 2 → Nat) a + S1x3584.size a ≤ S4x3584.size a
  inb_S4x3584_S1x3584_2_0 : ∀ a, (![2, 0] : Fin 2 → Nat) a + S1x3584.size a ≤ S4x3584.size a
  inb_S4x3584_S1x3584_3_0 : ∀ a, (![3, 0] : Fin 2 → Nat) a + S1x3584.size a ≤ S4x3584.size a
  slices_S128x3586_o0_0_S128x3584 : S128x3586.Slices ![0, 0] S128x3584
  broadcasts_S1x3584_S128x3584 : S1x3584.Broadcasts S128x3584
  slices_S128x3586_o0_1_S128x3584 : S128x3586.Slices ![0, 1] S128x3584
  slices_S128x3586_o0_2_S128x3584 : S128x3586.Slices ![0, 2] S128x3584
  inb_S128x3584_S128x3584_0_0 : ∀ a, (![0, 0] : Fin 2 → Nat) a + S128x3584.size a ≤ S128x3584.size a
  h_S128x3584 : 0 < S128x3584.numel
  shapeCasts_S256x3584_S256x32x16x7x1 : S256x3584.ShapeCasts S256x32x16x7x1
  transposes_S256x32x16x7x1_S256x7x16x32x1_0_3_2_1_4 : S256x32x16x7x1.Transposes [0, 3, 2, 1, 4] S256x7x16x32x1
  slices_S256x7x16x32x1_S256x5x16x32x1_0_1_0_0_0 : S256x7x16x32x1.Slices ![0, 1, 0, 0, 0] S256x5x16x32x1
  pads_S256x5x16x32x1_S256x5x16x34x1_000_000_000_110_000 : S256x5x16x32x1.Pads (![0, 0, 0, 1, 0] : Fin 5 → Nat) ![0, 0, 0, 1, 0] ![0, 0, 0, 0, 0] S256x5x16x34x1
  shapeCasts_S256x5x16x34x1_S256x2720 : S256x5x16x34x1.ShapeCasts S256x2720
  pads_S256x2720_S256x2722_000_110 : S256x2720.Pads (![0, 1] : Fin 2 → Nat) ![0, 1] ![0, 0] S256x2722
  transposes_S2720x3_S3x2720_1_0 : S2720x3.Transposes [1, 0] S3x2720
  shapeCasts_S2720_S1x2720 : S2720.ShapeCasts S1x2720
  concatenates_S3x2720_S1x2720_S4x2720_d0 : Shape.Concatenates [S3x2720, S1x2720] S4x2720 0
  inb_S128x2722_S128x2722_0_0 : ∀ a, (![0, 0] : Fin 2 → Nat) a + S128x2722.size a ≤ S128x2722.size a
  h_S128x2722 : 0 < S128x2722.numel
  shapeCasts_S128x2722_S128x2722 : S128x2722.ShapeCasts S128x2722
  inb_S4x2720_S1x2720_0_0 : ∀ a, (![0, 0] : Fin 2 → Nat) a + S1x2720.size a ≤ S4x2720.size a
  h_S1x2720 : 0 < S1x2720.numel
  shapeCasts_S1x2720_S1x2720 : S1x2720.ShapeCasts S1x2720
  inb_S4x2720_S1x2720_1_0 : ∀ a, (![1, 0] : Fin 2 → Nat) a + S1x2720.size a ≤ S4x2720.size a
  inb_S4x2720_S1x2720_2_0 : ∀ a, (![2, 0] : Fin 2 → Nat) a + S1x2720.size a ≤ S4x2720.size a
  inb_S4x2720_S1x2720_3_0 : ∀ a, (![3, 0] : Fin 2 → Nat) a + S1x2720.size a ≤ S4x2720.size a
  slices_S128x2722_o0_0_S128x2720 : S128x2722.Slices ![0, 0] S128x2720
  broadcasts_S1x2720_S128x2720 : S1x2720.Broadcasts S128x2720
  slices_S128x2722_o0_1_S128x2720 : S128x2722.Slices ![0, 1] S128x2720
  slices_S128x2722_o0_2_S128x2720 : S128x2722.Slices ![0, 2] S128x2720
  inb_S128x2720_S128x2720_0_0 : ∀ a, (![0, 0] : Fin 2 → Nat) a + S128x2720.size a ≤ S128x2720.size a
  h_S128x2720 : 0 < S128x2720.numel
  shapeCasts_S256x2720_S256x5x16x34x1 : S256x2720.ShapeCasts S256x5x16x34x1
  slices_S256x5x16x34x1_S256x5x16x32x1_0_0_0_1_0 : S256x5x16x34x1.Slices ![0, 0, 0, 1, 0] S256x5x16x32x1
  pads_S256x5x16x32x1_S256x5x18x32x1_000_000_110_000_000 : S256x5x16x32x1.Pads (![0, 0, 1, 0, 0] : Fin 5 → Nat) ![0, 0, 1, 0, 0] ![0, 0, 0, 0, 0] S256x5x18x32x1
  transposes_S256x5x18x32x1_S256x5x32x18x1_0_1_3_2_4 : S256x5x18x32x1.Transposes [0, 1, 3, 2, 4] S256x5x32x18x1
  shapeCasts_S256x5x32x18x1_S256x2880 : S256x5x32x18x1.ShapeCasts S256x2880
  pads_S256x2880_S256x2882_000_110 : S256x2880.Pads (![0, 1] : Fin 2 → Nat) ![0, 1] ![0, 0] S256x2882
  transposes_S2880x3_S3x2880_1_0 : S2880x3.Transposes [1, 0] S3x2880
  shapeCasts_S2880_S1x2880 : S2880.ShapeCasts S1x2880
  concatenates_S3x2880_S1x2880_S4x2880_d0 : Shape.Concatenates [S3x2880, S1x2880] S4x2880 0
  inb_S128x2882_S128x2882_0_0 : ∀ a, (![0, 0] : Fin 2 → Nat) a + S128x2882.size a ≤ S128x2882.size a
  h_S128x2882 : 0 < S128x2882.numel
  shapeCasts_S128x2882_S128x2882 : S128x2882.ShapeCasts S128x2882
  inb_S4x2880_S1x2880_0_0 : ∀ a, (![0, 0] : Fin 2 → Nat) a + S1x2880.size a ≤ S4x2880.size a
  h_S1x2880 : 0 < S1x2880.numel
  shapeCasts_S1x2880_S1x2880 : S1x2880.ShapeCasts S1x2880
  inb_S4x2880_S1x2880_1_0 : ∀ a, (![1, 0] : Fin 2 → Nat) a + S1x2880.size a ≤ S4x2880.size a
  inb_S4x2880_S1x2880_2_0 : ∀ a, (![2, 0] : Fin 2 → Nat) a + S1x2880.size a ≤ S4x2880.size a
  inb_S4x2880_S1x2880_3_0 : ∀ a, (![3, 0] : Fin 2 → Nat) a + S1x2880.size a ≤ S4x2880.size a
  slices_S128x2882_o0_0_S128x2880 : S128x2882.Slices ![0, 0] S128x2880
  broadcasts_S1x2880_S128x2880 : S1x2880.Broadcasts S128x2880
  slices_S128x2882_o0_1_S128x2880 : S128x2882.Slices ![0, 1] S128x2880
  slices_S128x2882_o0_2_S128x2880 : S128x2882.Slices ![0, 2] S128x2880
  inb_S128x2880_S128x2880_0_0 : ∀ a, (![0, 0] : Fin 2 → Nat) a + S128x2880.size a ≤ S128x2880.size a
  h_S128x2880 : 0 < S128x2880.numel
  shapeCasts_S256x2880_S256x5x32x18x1 : S256x2880.ShapeCasts S256x5x32x18x1
  transposes_S256x5x32x18x1_S256x5x18x32x1_0_1_3_2_4 : S256x5x32x18x1.Transposes [0, 1, 3, 2, 4] S256x5x18x32x1
  slices_S256x5x18x32x1_S256x5x16x32x1_0_0_1_0_0 : S256x5x18x32x1.Slices ![0, 0, 1, 0, 0] S256x5x16x32x1
  bcast_S256x5x16x32x1_S256x5x1x16x1x32x1x1_0_1_3_5_7 : S256x5x16x32x1.BroadcastsInDim S256x5x1x16x1x32x1x1 (![0, 1, 3, 5, 7] : Fin 5 → Fin S256x5x1x16x1x32x1x1.rank)
  bcast_S256x5x1x16x1x32x1x1_S256x5x3x16x4x32x4x1_0_1_2_3_4_5_6_7 : S256x5x1x16x1x32x1x1.BroadcastsInDim S256x5x3x16x4x32x4x1 (![0, 1, 2, 3, 4, 5, 6, 7] : Fin 8 → Fin S256x5x3x16x4x32x4x1.rank)
  shapeCasts_S256x5x3x16x4x32x4x1_S256x15x64x128x1 : S256x5x3x16x4x32x4x1.ShapeCasts S256x15x64x128x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3586.size a ≤ S256x3586.size a
  hwx0_0 : ∀ i : grid0.Coords, EltTy.bits .f32 = 32 ∨ (Rect.block (s := S256x3586) S128x3586.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x3584.size a ≤ S4x3584.size a
  hwx0_1 : ∀ i : grid0.Coords, EltTy.bits .f32 = 32 ∨ (Rect.block (s := S4x3584) S4x3584.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x3584.size a ≤ S256x3584.size a
  hwx0_2 : ∀ i : grid0.Coords, EltTy.bits .f32 = 32 ∨ (Rect.block (s := S256x3584) S128x3584.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2722.size a ≤ S256x2722.size a
  hwx1_0 : ∀ i : grid1.Coords, EltTy.bits .f32 = 32 ∨ (Rect.block (s := S256x2722) S128x2722.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x2720.size a ≤ S4x2720.size a
  hwx1_1 : ∀ i : grid1.Coords, EltTy.bits .f32 = 32 ∨ (Rect.block (s := S4x2720) S4x2720.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x2720.size a ≤ S256x2720.size a
  hwx1_2 : ∀ i : grid1.Coords, EltTy.bits .f32 = 32 ∨ (Rect.block (s := S256x2720) S128x2720.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x2882.size a ≤ S256x2882.size a
  hwx2_0 : ∀ i : grid2.Coords, EltTy.bits .f32 = 32 ∨ (Rect.block (s := S256x2882) S128x2882.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x2880.size a ≤ S4x2880.size a
  hwx2_1 : ∀ i : grid2.Coords, EltTy.bits .f32 = 32 ∨ (Rect.block (s := S4x2880) S4x2880.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x2880.size a ≤ S256x2880.size a
  hwx2_2 : ∀ i : grid2.Coords, EltTy.bits .f32 = 32 ∨ (Rect.block (s := S256x2880) S128x2880.size (cc2_transform_2 i) (hinb2_2 i)).WholeWords (EltTy.packing .f32)

variable [Facts₀]

abbrev win0_0 : Pipeline.Window sig grid0 :=
  Pipeline.Window.ofSpec (Memref.whole main_v7) S128x3586.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4x3584.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x3584.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S128x2722.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4x2720.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x2720.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v27) S128x2882.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S4x2880.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S128x2880.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S256x15x64x128x1 : Shape := ⟨5, ![256, 15, 64, 128, 1]⟩
abbrev S3584x3 : Shape := ⟨2, ![3584, 3]⟩
abbrev S3584 : Shape := ⟨1, ![3584]⟩
abbrev S2720x3 : Shape := ⟨2, ![2720, 3]⟩
abbrev S2720 : Shape := ⟨1, ![2720]⟩
abbrev S2880x3 : Shape := ⟨2, ![2880, 3]⟩
abbrev S2880 : Shape := ⟨1, ![2880]⟩
abbrev S256x5x3x16x4x32x4x1 : Shape := ⟨8, ![256, 5, 3, 16, 4, 32, 4, 1]⟩
abbrev S_ : Shape := ⟨0, ![]⟩
abbrev S256x5x16x32x1 : Shape := ⟨5, ![256, 5, 16, 32, 1]⟩
abbrev S256x7x16x32x1 : Shape := ⟨5, ![256, 7, 16, 32, 1]⟩
abbrev S256x32x16x7x1 : Shape := ⟨5, ![256, 32, 16, 7, 1]⟩
abbrev S256x3584 : Shape := ⟨2, ![256, 3584]⟩
abbrev S256x3586 : Shape := ⟨2, ![256, 3586]⟩
abbrev S3584x1 : Shape := ⟨2, ![3584, 1]⟩
abbrev S1x3584 : Shape := ⟨2, ![1, 3584]⟩
abbrev S256x5x16x34x1 : Shape := ⟨5, ![256, 5, 16, 34, 1]⟩
abbrev S256x2720 : Shape := ⟨2, ![256, 2720]⟩
abbrev S256x2722 : Shape := ⟨2, ![256, 2722]⟩
abbrev S2720x1 : Shape := ⟨2, ![2720, 1]⟩
abbrev S1x2720 : Shape := ⟨2, ![1, 2720]⟩
abbrev S256x5x18x32x1 : Shape := ⟨5, ![256, 5, 18, 32, 1]⟩
abbrev S256x5x32x18x1 : Shape := ⟨5, ![256, 5, 32, 18, 1]⟩
abbrev S256x2880 : Shape := ⟨2, ![256, 2880]⟩
abbrev S256x2882 : Shape := ⟨2, ![256, 2882]⟩
abbrev S2880x1 : Shape := ⟨2, ![2880, 1]⟩
abbrev S1x2880 : Shape := ⟨2, ![1, 2880]⟩
abbrev S256x5x1x16x1x32x1x1 : Shape := ⟨8, ![256, 5, 1, 16, 1, 32, 1, 1]⟩

abbrev nBuf : Space → Nat
  | .hbm => 125
  | .vmem => 0
  | .smem => 0
  | _ => 0

abbrev bufTy : (tb : Table) → Fin (tcTables nBuf tb) → BufTy
  | .hbm, ⟨0, _⟩ => ⟨S256x15x64x128x1, .f32⟩
  | .hbm, ⟨1, _⟩ => ⟨S3584x3, .f32⟩
  | .hbm, ⟨2, _⟩ => ⟨S3584, .f32⟩
  | .hbm, ⟨3, _⟩ => ⟨S2720x3, .f32⟩
  | .hbm, ⟨4, _⟩ => ⟨S2720, .f32⟩
  | .hbm, ⟨5, _⟩ => ⟨S2880x3, .f32⟩
  | .hbm, ⟨6, _⟩ => ⟨S2880, .f32⟩
  | .hbm, ⟨7, _⟩ => ⟨S256x5x3x16x4x32x4x1, .f32⟩
  | .hbm, ⟨8, _⟩ => ⟨S_, .f32⟩
  | .hbm, ⟨9, _⟩ => ⟨S256x5x16x32x1, .f32⟩
  | .hbm, ⟨10, _⟩ => ⟨S_, .f32⟩
  | .hbm, ⟨11, _⟩ => ⟨S256x5x16x32x1, .f32⟩
  | .hbm, ⟨12, _⟩ => ⟨S256x5x16x32x1, .f32⟩
  | .hbm, ⟨13, _⟩ => ⟨S_, .i32⟩
  | .hbm, ⟨14, _⟩ => ⟨S_, .f32⟩
  | .hbm, ⟨15, _⟩ => ⟨S256x7x16x32x1, .f32⟩
  | .hbm, ⟨16, _⟩ => ⟨S256x32x16x7x1, .f32⟩
  | .hbm, ⟨17, _⟩ => ⟨S256x3584, .f32⟩
  | .hbm, ⟨18, _⟩ => ⟨S_, .i32⟩
  | .hbm, ⟨19, _⟩ => ⟨S_, .f32⟩
  | .hbm, ⟨20, _⟩ => ⟨S256x3586, .f32⟩
  | .hbm, ⟨21, _⟩ => ⟨S3584x1, .f32⟩
  | .hbm, ⟨22, _⟩ => ⟨S3584, .f32⟩
  | .hbm, ⟨23, _⟩ => ⟨S256x3584, .f32⟩
  | .hbm, ⟨24, _⟩ => ⟨S1x3584, .f32⟩
  | .hbm, ⟨25, _⟩ => ⟨S256x3584, .f32⟩
  | .hbm, ⟨26, _⟩ => ⟨S256x3584, .f32⟩
  | .hbm, ⟨27, _⟩ => ⟨S3584x1, .f32⟩
  | .hbm, ⟨28, _⟩ => ⟨S3584, .f32⟩
  | .hbm, ⟨29, _⟩ => ⟨S256x3584, .f32⟩
  | .hbm, ⟨30, _⟩ => ⟨S1x3584, .f32⟩
  | .hbm, ⟨31, _⟩ => ⟨S256x3584, .f32⟩
  | .hbm, ⟨32, _⟩ => ⟨S256x3584, .f32⟩
  | .hbm, ⟨33, _⟩ => ⟨S256x3584, .f32⟩
  | .hbm, ⟨34, _⟩ => ⟨S3584x1, .f32⟩
  | .hbm, ⟨35, _⟩ => ⟨S3584, .f32⟩
  | .hbm, ⟨36, _⟩ => ⟨S256x3584, .f32⟩
  | .hbm, ⟨37, _⟩ => ⟨S1x3584, .f32⟩
  | .hbm, ⟨38, _⟩ => ⟨S256x3584, .f32⟩
  | .hbm, ⟨39, _⟩ => ⟨S256x3584, .f32⟩
  | .hbm, ⟨40, _⟩ => ⟨S256x3584, .f32⟩
  | .hbm, ⟨41, _⟩ => ⟨S1x3584, .f32⟩
  | .hbm, ⟨42, _⟩ => ⟨S256x3584, .f32⟩
  | .hbm, ⟨43, _⟩ => ⟨S256x3584, .f32⟩
  | .hbm, ⟨44, _⟩ => ⟨S_, .f32⟩
  | .hbm, ⟨45, _⟩ => ⟨S256x3584, .f32⟩
  | .hbm, ⟨46, _⟩ => ⟨S256x3584, .f32⟩
  | .hbm, ⟨47, _⟩ => ⟨S256x32x16x7x1, .f32⟩
  | .hbm, ⟨48, _⟩ => ⟨S256x7x16x32x1, .f32⟩
  | .hbm, ⟨49, _⟩ => ⟨S256x5x16x32x1, .f32⟩
  | .hbm, ⟨50, _⟩ => ⟨S_, .i32⟩
  | .hbm, ⟨51, _⟩ => ⟨S_, .f32⟩
  | .hbm, ⟨52, _⟩ => ⟨S256x5x16x34x1, .f32⟩
  | .hbm, ⟨53, _⟩ => ⟨S256x2720, .f32⟩
  | .hbm, ⟨54, _⟩ => ⟨S_, .i32⟩
  | .hbm, ⟨55, _⟩ => ⟨S_, .f32⟩
  | .hbm, ⟨56, _⟩ => ⟨S256x2722, .f32⟩
  | .hbm, ⟨57, _⟩ => ⟨S2720x1, .f32⟩
  | .hbm, ⟨58, _⟩ => ⟨S2720, .f32⟩
  | .hbm, ⟨59, _⟩ => ⟨S256x2720, .f32⟩
  | .hbm, ⟨60, _⟩ => ⟨S1x2720, .f32⟩
  | .hbm, ⟨61, _⟩ => ⟨S256x2720, .f32⟩
  | .hbm, ⟨62, _⟩ => ⟨S256x2720, .f32⟩
  | .hbm, ⟨63, _⟩ => ⟨S2720x1, .f32⟩
  | .hbm, ⟨64, _⟩ => ⟨S2720, .f32⟩
  | .hbm, ⟨65, _⟩ => ⟨S256x2720, .f32⟩
  | .hbm, ⟨66, _⟩ => ⟨S1x2720, .f32⟩
  | .hbm, ⟨67, _⟩ => ⟨S256x2720, .f32⟩
  | .hbm, ⟨68, _⟩ => ⟨S256x2720, .f32⟩
  | .hbm, ⟨69, _⟩ => ⟨S256x2720, .f32⟩
  | .hbm, ⟨70, _⟩ => ⟨S2720x1, .f32⟩
  | .hbm, ⟨71, _⟩ => ⟨S2720, .f32⟩
  | .hbm, ⟨72, _⟩ => ⟨S256x2720, .f32⟩
  | .hbm, ⟨73, _⟩ => ⟨S1x2720, .f32⟩
  | .hbm, ⟨74, _⟩ => ⟨S256x2720, .f32⟩
  | .hbm, ⟨75, _⟩ => ⟨S256x2720, .f32⟩
  | .hbm, ⟨76, _⟩ => ⟨S256x2720, .f32⟩
  | .hbm, ⟨77, _⟩ => ⟨S1x2720, .f32⟩
  | .hbm, ⟨78, _⟩ => ⟨S256x2720, .f32⟩
  | .hbm, ⟨79, _⟩ => ⟨S256x2720, .f32⟩
  | .hbm, ⟨80, _⟩ => ⟨S_, .f32⟩
  | .hbm, ⟨81, _⟩ => ⟨S256x2720, .f32⟩
  | .hbm, ⟨82, _⟩ => ⟨S256x2720, .f32⟩
  | .hbm, ⟨83, _⟩ => ⟨S256x5x16x34x1, .f32⟩
  | .hbm, ⟨84, _⟩ => ⟨S256x5x16x32x1, .f32⟩
  | .hbm, ⟨85, _⟩ => ⟨S_, .i32⟩
  | .hbm, ⟨86, _⟩ => ⟨S_, .f32⟩
  | .hbm, ⟨87, _⟩ => ⟨S256x5x18x32x1, .f32⟩
  | .hbm, ⟨88, _⟩ => ⟨S256x5x32x18x1, .f32⟩
  | .hbm, ⟨89, _⟩ => ⟨S256x2880, .f32⟩
  | .hbm, ⟨90, _⟩ => ⟨S_, .i32⟩
  | .hbm, ⟨91, _⟩ => ⟨S_, .f32⟩
  | .hbm, ⟨92, _⟩ => ⟨S256x2882, .f32⟩
  | .hbm, ⟨93, _⟩ => ⟨S2880x1, .f32⟩
  | .hbm, ⟨94, _⟩ => ⟨S2880, .f32⟩
  | .hbm, ⟨95, _⟩ => ⟨S256x2880, .f32⟩
  | .hbm, ⟨96, _⟩ => ⟨S1x2880, .f32⟩
  | .hbm, ⟨97, _⟩ => ⟨S256x2880, .f32⟩
  | .hbm, ⟨98, _⟩ => ⟨S256x2880, .f32⟩
  | .hbm, ⟨99, _⟩ => ⟨S2880x1, .f32⟩
  | .hbm, ⟨100, _⟩ => ⟨S2880, .f32⟩
  | .hbm, ⟨101, _⟩ => ⟨S256x2880, .f32⟩
  | .hbm, ⟨102, _⟩ => ⟨S1x2880, .f32⟩
  | .hbm, ⟨103, _⟩ => ⟨S256x2880, .f32⟩
  | .hbm, ⟨104, _⟩ => ⟨S256x2880, .f32⟩
  | .hbm, ⟨105, _⟩ => ⟨S256x2880, .f32⟩
  | .hbm, ⟨106, _⟩ => ⟨S2880x1, .f32⟩
  | .hbm, ⟨107, _⟩ => ⟨S2880, .f32⟩
  | .hbm, ⟨108, _⟩ => ⟨S256x2880, .f32⟩
  | .hbm, ⟨109, _⟩ => ⟨S1x2880, .f32⟩
  | .hbm, ⟨110, _⟩ => ⟨S256x2880, .f32⟩
  | .hbm, ⟨111, _⟩ => ⟨S256x2880, .f32⟩
  | .hbm, ⟨112, _⟩ => ⟨S256x2880, .f32⟩
  | .hbm, ⟨113, _⟩ => ⟨S1x2880, .f32⟩
  | .hbm, ⟨114, _⟩ => ⟨S256x2880, .f32⟩
  | .hbm, ⟨115, _⟩ => ⟨S256x2880, .f32⟩
  | .hbm, ⟨116, _⟩ => ⟨S_, .f32⟩
  | .hbm, ⟨117, _⟩ => ⟨S256x2880, .f32⟩
  | .hbm, ⟨118, _⟩ => ⟨S256x2880, .f32⟩
  | .hbm, ⟨119, _⟩ => ⟨S256x5x32x18x1, .f32⟩
  | .hbm, ⟨120, _⟩ => ⟨S256x5x18x32x1, .f32⟩
  | .hbm, ⟨121, _⟩ => ⟨S256x5x16x32x1, .f32⟩
  | .hbm, ⟨122, _⟩ => ⟨S256x5x1x16x1x32x1x1, .f32⟩
  | .hbm, ⟨123, _⟩ => ⟨S256x5x3x16x4x32x4x1, .f32⟩
  | .hbm, ⟨124, _⟩ => ⟨S256x15x64x128x1, .f32⟩
  | _, _ => ⟨S256x15x64x128x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call2_cst : Ref sig .tc := ⟨.hbm, 44, rfl⟩
abbrev main_call2_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_2 : Ref sig .tc := ⟨.hbm, 50, rfl⟩
abbrev main_call3_v0 : Ref sig .tc := ⟨.hbm, 51, rfl⟩
abbrev main_v35 : Ref sig .tc := ⟨.hbm, 52, rfl⟩
abbrev main_v36 : Ref sig .tc := ⟨.hbm, 53, rfl⟩
abbrev main_c_3 : Ref sig .tc := ⟨.hbm, 54, rfl⟩
abbrev main_call4_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_call5_cst : Ref sig .tc := ⟨.hbm, 80, rfl⟩
abbrev main_call5_v0 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_4 : Ref sig .tc := ⟨.hbm, 85, rfl⟩
abbrev main_call6_v0 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_5 : Ref sig .tc := ⟨.hbm, 90, rfl⟩
abbrev main_call7_v0 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_call8_cst : Ref sig .tc := ⟨.hbm, 116, rfl⟩
abbrev main_call8_v0 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩

abbrev nD : Nat := 1
abbrev τ : Topo := Topo.v7x

variable {F : FTy → Type} [FloatOps F]

class Facts₀ : Prop where
  shapeCasts_S256x15x64x128x1_S256x5x3x16x4x32x4x1 : S256x15x64x128x1.ShapeCasts S256x5x3x16x4x32x4x1
  reducesTo_S256x5x3x16x4x32x4x1_S256x5x16x32x1_d2_4_6 : S256x5x3x16x4x32x4x1.ReducesTo [2, 4, 6] S256x5x16x32x1
  h_S_ : 0 < S_.numel
  bcast_S_S256x5x16x32x1 : S_.BroadcastsInDim S256x5x16x32x1 (![] : Fin 0 → Fin S256x5x16x32x1.rank)
  pads_S256x5x16x32x1_S256x7x16x32x1_000_110_000_000_000 : S256x5x16x32x1.Pads (![0, 1, 0, 0, 0] : Fin 5 → Nat) ![0, 1, 0, 0, 0] ![0, 0, 0, 0, 0] S256x7x16x32x1
  transposes_S256x7x16x32x1_S256x32x16x7x1_0_3_2_1_4 : S256x7x16x32x1.Transposes [0, 3, 2, 1, 4] S256x32x16x7x1
  shapeCasts_S256x32x16x7x1_S256x3584 : S256x32x16x7x1.ShapeCasts S256x3584
  pads_S256x3584_S256x3586_000_110 : S256x3584.Pads (![0, 1] : Fin 2 → Nat) ![0, 1] ![0, 0] S256x3586
  slices_S3584x3_S3584x1_0_0 : S3584x3.Slices ![0, 0] S3584x1
  shapeCasts_S3584x1_S3584 : S3584x1.ShapeCasts S3584
  slices_S256x3586_S256x3584_0_0 : S256x3586.Slices ![0, 0] S256x3584
  bcast_S3584_S1x3584_1 : S3584.BroadcastsInDim S1x3584 (![1] : Fin 1 → Fin S1x3584.rank)
  bcast_S1x3584_S256x3584_0_1 : S1x3584.BroadcastsInDim S256x3584 (![0, 1] : Fin 2 → Fin S256x3584.rank)
  slices_S3584x3_S3584x1_0_1 : S3584x3.Slices ![0, 1] S3584x1
  slices_S256x3586_S256x3584_0_1 : S256x3586.Slices ![0, 1] S256x3584
  slices_S3584x3_S3584x1_0_2 : S3584x3.Slices ![0, 2] S3584x1
  slices_S256x3586_S256x3584_0_2 : S256x3586.Slices ![0, 2] S256x3584
  bcast_S_S256x3584 : S_.BroadcastsInDim S256x3584 (![] : Fin 0 → Fin S256x3584.rank)
  shapeCasts_S256x3584_S256x32x16x7x1 : S256x3584.ShapeCasts S256x32x16x7x1
  transposes_S256x32x16x7x1_S256x7x16x32x1_0_3_2_1_4 : S256x32x16x7x1.Transposes [0, 3, 2, 1, 4] S256x7x16x32x1
  slices_S256x7x16x32x1_S256x5x16x32x1_0_1_0_0_0 : S256x7x16x32x1.Slices ![0, 1, 0, 0, 0] S256x5x16x32x1
  pads_S256x5x16x32x1_S256x5x16x34x1_000_000_000_110_000 : S256x5x16x32x1.Pads (![0, 0, 0, 1, 0] : Fin 5 → Nat) ![0, 0, 0, 1, 0] ![0, 0, 0, 0, 0] S256x5x16x34x1
  shapeCasts_S256x5x16x34x1_S256x2720 : S256x5x16x34x1.ShapeCasts S256x2720
  pads_S256x2720_S256x2722_000_110 : S256x2720.Pads (![0, 1] : Fin 2 → Nat) ![0, 1] ![0, 0] S256x2722
  slices_S2720x3_S2720x1_0_0 : S2720x3.Slices ![0, 0] S2720x1
  shapeCasts_S2720x1_S2720 : S2720x1.ShapeCasts S2720
  slices_S256x2722_S256x2720_0_0 : S256x2722.Slices ![0, 0] S256x2720
  bcast_S2720_S1x2720_1 : S2720.BroadcastsInDim S1x2720 (![1] : Fin 1 → Fin S1x2720.rank)
  bcast_S1x2720_S256x2720_0_1 : S1x2720.BroadcastsInDim S256x2720 (![0, 1] : Fin 2 → Fin S256x2720.rank)
  slices_S2720x3_S2720x1_0_1 : S2720x3.Slices ![0, 1] S2720x1
  slices_S256x2722_S256x2720_0_1 : S256x2722.Slices ![0, 1] S256x2720
  slices_S2720x3_S2720x1_0_2 : S2720x3.Slices ![0, 2] S2720x1
  slices_S256x2722_S256x2720_0_2 : S256x2722.Slices ![0, 2] S256x2720
  bcast_S_S256x2720 : S_.BroadcastsInDim S256x2720 (![] : Fin 0 → Fin S256x2720.rank)
  shapeCasts_S256x2720_S256x5x16x34x1 : S256x2720.ShapeCasts S256x5x16x34x1
  slices_S256x5x16x34x1_S256x5x16x32x1_0_0_0_1_0 : S256x5x16x34x1.Slices ![0, 0, 0, 1, 0] S256x5x16x32x1
  pads_S256x5x16x32x1_S256x5x18x32x1_000_000_110_000_000 : S256x5x16x32x1.Pads (![0, 0, 1, 0, 0] : Fin 5 → Nat) ![0, 0, 1, 0, 0] ![0, 0, 0, 0, 0] S256x5x18x32x1
  transposes_S256x5x18x32x1_S256x5x32x18x1_0_1_3_2_4 : S256x5x18x32x1.Transposes [0, 1, 3, 2, 4] S256x5x32x18x1
  shapeCasts_S256x5x32x18x1_S256x2880 : S256x5x32x18x1.ShapeCasts S256x2880
  pads_S256x2880_S256x2882_000_110 : S256x2880.Pads (![0, 1] : Fin 2 → Nat) ![0, 1] ![0, 0] S256x2882
  slices_S2880x3_S2880x1_0_0 : S2880x3.Slices ![0, 0] S2880x1
  shapeCasts_S2880x1_S2880 : S2880x1.ShapeCasts S2880
  slices_S256x2882_S256x2880_0_0 : S256x2882.Slices ![0, 0] S256x2880
  bcast_S2880_S1x2880_1 : S2880.BroadcastsInDim S1x2880 (![1] : Fin 1 → Fin S1x2880.rank)
  bcast_S1x2880_S256x2880_0_1 : S1x2880.BroadcastsInDim S256x2880 (![0, 1] : Fin 2 → Fin S256x2880.rank)
  slices_S2880x3_S2880x1_0_1 : S2880x3.Slices ![0, 1] S2880x1
  slices_S256x2882_S256x2880_0_1 : S256x2882.Slices ![0, 1] S256x2880
  slices_S2880x3_S2880x1_0_2 : S2880x3.Slices ![0, 2] S2880x1
  slices_S256x2882_S256x2880_0_2 : S256x2882.Slices ![0, 2] S256x2880
  bcast_S_S256x2880 : S_.BroadcastsInDim S256x2880 (![] : Fin 0 → Fin S256x2880.rank)
  shapeCasts_S256x2880_S256x5x32x18x1 : S256x2880.ShapeCasts S256x5x32x18x1
  transposes_S256x5x32x18x1_S256x5x18x32x1_0_1_3_2_4 : S256x5x32x18x1.Transposes [0, 1, 3, 2, 4] S256x5x18x32x1
  slices_S256x5x18x32x1_S256x5x16x32x1_0_0_1_0_0 : S256x5x18x32x1.Slices ![0, 0, 1, 0, 0] S256x5x16x32x1
  bcast_S256x5x16x32x1_S256x5x1x16x1x32x1x1_0_1_3_5_7 : S256x5x16x32x1.BroadcastsInDim S256x5x1x16x1x32x1x1 (![0, 1, 3, 5, 7] : Fin 5 → Fin S256x5x1x16x1x32x1x1.rank)
  bcast_S256x5x1x16x1x32x1x1_S256x5x3x16x4x32x4x1_0_1_2_3_4_5_6_7 : S256x5x1x16x1x32x1x1.BroadcastsInDim S256x5x3x16x4x32x4x1 (![0, 1, 2, 3, 4, 5, 6, 7] : Fin 8 → Fin S256x5x3x16x4x32x4x1.rank)
  shapeCasts_S256x5x3x16x4x32x4x1_S256x15x64x128x1 : S256x5x3x16x4x32x4x1.ShapeCasts S256x15x64x128x1

variable [Facts₀]

class Facts : Prop extends Facts₀ where

variable [Facts]
-- ==== Proof.TapSpec.lean ====
/-
  The arithmetic both programs apply three times: a locally connected one-dimensional layer with three taps and a
  bias, followed by the clamp at zero. For a padded row array `xp` (rows of length `L + 2`), per-position weights and
  a per-position bias, entry `(p, q)` of the result is

      max (w₀[q] · xp[p, q] + w₁[q] · xp[p, q + 1] + w₂[q] · xp[p, q + 2] + b[q]) 0,

  the sums and products associated exactly as written (left to right). Two spellings of the weights occur: stacked as
  the four rows of one `4 × L` array (rows 0, 1, 2 the taps, row 3 the bias), and as an `L × 3` weight array beside a
  length-`L` bias vector; the stacked array is the transposed weight array over the bias as a fourth row (`stack`), and
  on it the two spellings agree (`tapG_stack`). Nothing here depends on the float instance: every operation is the
  instance's own.
-/
import Idealize.ShloMosaic.PureOps
import Idealize.ShloMosaic.Lib.ValueIdx
import Idealize.ShloMosaic.Lib.Pipeline.Value

noncomputable section

namespace Cert.Taps

open Idealize.ShloMosaic Idealize.ShloMosaic.ValueIdx

variable {F : FTy → Type} [FloatOps F]

/-- Entry `(p, q)` of the clamped three-tap sum, the weights stacked as the rows of a `4 × L` array. -/
def tapAt {B L L2 : Nat} (hL : L + 2 ≤ L2) (xp : (⟨2, ![B, L2]⟩ : Shape).Idx → F .f32)
    (wt : (⟨2, ![4, L]⟩ : Shape).Idx → F .f32) (p : Fin B) (q : Fin L) : F .f32 :=
  FloatOps.maximumf (FloatOps.addf (FloatOps.addf (FloatOps.addf
    (FloatOps.mulf (wt (ix2 (0 : Fin 4) q)) (xp (ix2 p (⟨q.val, by omega⟩ : Fin L2))))
    (FloatOps.mulf (wt (ix2 (1 : Fin 4) q)) (xp (ix2 p (⟨q.val + 1, by omega⟩ : Fin L2)))))
    (FloatOps.mulf (wt (ix2 (2 : Fin 4) q)) (xp (ix2 p (⟨q.val + 2, by omega⟩ : Fin L2)))))
    (wt (ix2 (3 : Fin 4) q))) (FloatOps.ofBits .f32 0x00000000#32)

/-- The whole `B × L` array of those entries. -/
def tapG {B L L2 : Nat} (hL : L + 2 ≤ L2) (xp : (⟨2, ![B, L2]⟩ : Shape).Idx → F .f32)
    (wt : (⟨2, ![4, L]⟩ : Shape).Idx → F .f32) : (⟨2, ![B, L]⟩ : Shape).Idx → F .f32 := fun i =>
  tapAt hL xp wt ⟨(i 0).val, (i 0).isLt⟩ ⟨(i 1).val, (i 1).isLt⟩

theorem tapG_apply {B L L2 : Nat} (hL : L + 2 ≤ L2) (xp : (⟨2, ![B, L2]⟩ : Shape).Idx → F .f32)
    (wt : (⟨2, ![4, L]⟩ : Shape).Idx → F .f32) (p : Fin B) (q : Fin L) :
    tapG hL xp wt (ix2 p q) = tapAt hL xp wt p q := rfl

/-- Entry `(p, q)` of the clamped three-tap sum, the weights an `L × 3` array and the bias a vector. -/
def tapAtW {B L L2 : Nat} (hL : L + 2 ≤ L2) (xp : (⟨2, ![B, L2]⟩ : Shape).Idx → F .f32)
    (w : (⟨2, ![L, 3]⟩ : Shape).Idx → F .f32) (b : (⟨1, ![L]⟩ : Shape).Idx → F .f32) (p : Fin B) (q : Fin L) : F .f32 :=
  FloatOps.maximumf (FloatOps.addf (FloatOps.addf (FloatOps.addf
    (FloatOps.mulf (w (ix2 q (0 : Fin 3))) (xp (ix2 p (⟨q.val, by omega⟩ : Fin L2))))
    (FloatOps.mulf (w (ix2 q (1 : Fin 3))) (xp (ix2 p (⟨q.val + 1, by omega⟩ : Fin L2)))))
    (FloatOps.mulf (w (ix2 q (2 : Fin 3))) (xp (ix2 p (⟨q.val + 2, by omega⟩ : Fin L2)))))
    (b (ix1 q))) (FloatOps.ofBits .f32 0x00000000#32)

/-- The whole `B × L` array of those entries. -/
def tapGW {B L L2 : Nat} (hL : L + 2 ≤ L2) (xp : (⟨2, ![B, L2]⟩ : Shape).Idx → F .f32)
    (w : (⟨2, ![L, 3]⟩ : Shape).Idx → F .f32) (b : (⟨1, ![L]⟩ : Shape).Idx → F .f32) :
    (⟨2, ![B, L]⟩ : Shape).Idx → F .f32 := fun i =>
  tapAtW hL xp w b ⟨(i 0).val, (i 0).isLt⟩ ⟨(i 1).val, (i 1).isLt⟩

theorem tapGW_apply {B L L2 : Nat} (hL : L + 2 ≤ L2) (xp : (⟨2, ![B, L2]⟩ : Shape).Idx → F .f32)
    (w : (⟨2, ![L, 3]⟩ : Shape).Idx → F .f32) (b : (⟨1, ![L]⟩ : Shape).Idx → F .f32) (p : Fin B) (q : Fin L) :
    tapGW hL xp w b (ix2 p q) = tapAtW hL xp w b p q := rfl

/-- When the stacked rows are the weight array's columns and the bias, the two spellings are one array. -/
theorem tapG_eq_tapGW {B L L2 : Nat} (hL : L + 2 ≤ L2) (xp : (⟨2, ![B, L2]⟩ : Shape).Idx → F .f32)
    (wt : (⟨2, ![4, L]⟩ : Shape).Idx → F .f32) (w : (⟨2, ![L, 3]⟩ : Shape).Idx → F .f32)
    (b : (⟨1, ![L]⟩ : Shape).Idx → F .f32)
    (h0 : ∀ q : Fin L, wt (ix2 (0 : Fin 4) q) = w (ix2 q (0 : Fin 3)))
    (h1 : ∀ q : Fin L, wt (ix2 (1 : Fin 4) q) = w (ix2 q (1 : Fin 3)))
    (h2 : ∀ q : Fin L, wt (ix2 (2 : Fin 4) q) = w (ix2 q (2 : Fin 3)))
    (h3 : ∀ q : Fin L, wt (ix2 (3 : Fin 4) q) = b (ix1 q)) :
    tapG hL xp wt = tapGW hL xp w b := by
  funext i
  show tapAt hL xp wt _ _ = tapAtW hL xp w b _ _
  unfold tapAt tapAtW
  rw [h0, h1, h2, h3]

/-! ## The stacked weights -/

section Stack
variable {α : Type}

/-- The `4 × L` stack of an `L × 3` weight array's three columns, as rows, over a length-`L` bias vector as a fourth row. -/
def stack {L : Nat} (w : (⟨2, ![L, 3]⟩ : Shape).Idx → α) (b : (⟨1, ![L]⟩ : Shape).Idx → α)
    (hT : (⟨2, ![L, 3]⟩ : Shape).Transposes [1, 0] ⟨2, ![3, L]⟩) (hS : (⟨1, ![L]⟩ : Shape).ShapeCasts ⟨2, ![1, L]⟩)
    (hC : Shape.Concatenates [(⟨2, ![3, L]⟩ : Shape), ⟨2, ![1, L]⟩] ⟨2, ![4, L]⟩ 0) : (⟨2, ![4, L]⟩ : Shape).Idx → α :=
  concatenate ⟨2, ![4, L]⟩ 0 [⟨⟨2, ![3, L]⟩, transpose ⟨2, ![3, L]⟩ [1, 0] w hT⟩, ⟨⟨2, ![1, L]⟩, shapeCast ⟨2, ![1, L]⟩ b hS⟩] hC

/-- Row `k < 3` of the stack is column `k` of the weight array. -/
theorem stack_tap {L : Nat} (w : (⟨2, ![L, 3]⟩ : Shape).Idx → α) (b : (⟨1, ![L]⟩ : Shape).Idx → α)
    (hT) (hS) (hC) (k : Fin 3) (q : Fin L) :
    stack w b hT hS hC (ix2 (⟨k.val, by omega⟩ : Fin 4) q) = w (ix2 q k) := by
  unfold stack
  refine (concatenate_pair_apply_left (t := ⟨2, ![4, L]⟩) (s₁ := ⟨2, ![3, L]⟩) (s₂ := ⟨2, ![1, L]⟩) (0 : Fin 2) _ _ hC
    (ix2 (⟨k.val, by omega⟩ : Fin 4) q) rfl (ix2 k q) (fun a => match a with
    | ⟨0, _⟩ => rfl
    | ⟨1, _⟩ => rfl)).trans ?_
  exact transpose_apply [1, 0] w hT (ix2 k q) (ix2 q k) (fun a => match a with
    | ⟨0, _⟩ => rfl
    | ⟨1, _⟩ => rfl)

/-- Row 3 of the stack is the bias. -/
theorem stack_bias {L : Nat} (w : (⟨2, ![L, 3]⟩ : Shape).Idx → α) (b : (⟨1, ![L]⟩ : Shape).Idx → α)
    (hT) (hS) (hC) (q : Fin L) :
    stack w b hT hS hC (ix2 (3 : Fin 4) q) = b (ix1 q) := by
  unfold stack
  refine (concatenate_pair_apply_right (t := ⟨2, ![4, L]⟩) (s₁ := ⟨2, ![3, L]⟩) (s₂ := ⟨2, ![1, L]⟩) (0 : Fin 2) _ _ hC
    (ix2 (3 : Fin 4) q) rfl rfl (ix2 (0 : Fin 1) q) (fun a => match a with
    | ⟨0, _⟩ => fun h => absurd rfl h
    | ⟨1, _⟩ => fun _ => rfl) (by show 0 + 3 = 3; rfl)).trans ?_
  exact shapeCast_apply b hS (ix2 (0 : Fin 1) q) (ix1 q)
    (by rw [Shape.rowMajor_val_one, Shape.rowMajor_val_two]; show q.val = 0 * L + q.val; omega)

end Stack

/-- On the stacked weights the two spellings of the clamped three-tap sum are one array. -/
theorem tapG_stack {B L L2 : Nat} (hL : L + 2 ≤ L2) (xp : (⟨2, ![B, L2]⟩ : Shape).Idx → F .f32)
    (w : (⟨2, ![L, 3]⟩ : Shape).Idx → F .f32) (b : (⟨1, ![L]⟩ : Shape).Idx → F .f32) (hT) (hS) (hC) :
    tapG hL xp (stack w b hT hS hC) = tapGW hL xp w b :=
  tapG_eq_tapGW hL xp _ w b (fun q => stack_tap w b hT hS hC 0 q) (fun q => stack_tap w b hT hS hC 1 q)
    (fun q => stack_tap w b hT hS hC 2 q) (fun q => stack_bias w b hT hS hC q)

end Cert.Taps

end
-- ==== Proof.KRegion0.lean ====
/-
  Region 0 (the first of the three pallas_calls, the depth layer): what its output array holds when the region ends.
  The grid has two points; point `t` stages rows `128 t … 128 t + 127` of the padded `256 × 3586` input and the whole
  `4 × 3584` stacked weight array, and writes back rows `128 t … 128 t + 127` of the `256 × 3584` output. The body's one
  store is, entry by entry, the clamped three-tap sum of `Cert.Taps` of its two loaded blocks (`pay_apply`), a block
  entry `(p, q)` is the array entry `(128 t + p, q)` (`xblk_apply`, `wblk_apply`), so point `t` writes back block `t` of
  ONE whole-array function (`flushed_eq`); the two blocks cover the output (`cover`: row `r` belongs to point
  `r / 128`), hence the array ends at that function (`value`). Stated at the region's entry contents `V`, at any float
  instance.
-/
import proofs.«167332_j3393024163963_1_alg».proof.Proof.Gen.KernelIdeal.Frame
import proofs.«167332_j3393024163963_1_alg».proof.Proof.TapSpec
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat Cfg Window)

variable {F : FTy → Type} [FloatOps F]

/-! ## The body's payload at an index -/

/-- A weight row broadcast down the 128 rows of a block, read at `(p, q)`, is the row at `q`. -/
theorem row_bcast (v : Vec F S1x3584 .f32) (p : Fin 128) (q : Fin 3584) :
    broadcastTo S128x3584 v broadcasts_S1x3584_S128x3584 (ix2 p q) = v (ix2 (0 : Fin 1) q) :=
  broadcastTo_apply v broadcasts_S1x3584_S128x3584 (ix2 p q) (ix2 (0 : Fin 1) q) (fun a => match a with
    | ⟨0, _⟩ => by show (0 : Nat) = if (1 : Nat) = 1 then 0 else p.val; rw [if_pos rfl]
    | ⟨1, _⟩ => by show q.val = if (3584 : Nat) = 1 then 0 else q.val; rw [if_neg (by decide)])

/-- The slice of the padded block from column offset 0, read at `(p, q)`. -/
theorem slice_at_0 (v0 : Vec F S128x3586 .f32) (p : Fin 128) (q : Fin 3584) :
    extractStridedSlice S128x3584 ![0, 0] v0 slices_S128x3586_o0_0_S128x3584 (ix2 p q) = v0 (ix2 p (⟨q.val, by omega⟩ : Fin 3586)) :=
  extractStridedSlice_apply ![0, 0] v0 slices_S128x3586_o0_0_S128x3584 (ix2 p q) _ (fun a => match a with
    | ⟨0, _⟩ => by show p.val = 0 + p.val; omega
    | ⟨1, _⟩ => by show q.val = 0 + q.val; omega)

/-- The slice from column offset 1, read at `(p, q)`. -/
theorem slice_at_1 (v0 : Vec F S128x3586 .f32) (p : Fin 128) (q : Fin 3584) :
    extractStridedSlice S128x3584 ![0, 1] v0 slices_S128x3586_o0_1_S128x3584 (ix2 p q) = v0 (ix2 p (⟨q.val + 1, by omega⟩ : Fin 3586)) :=
  extractStridedSlice_apply ![0, 1] v0 slices_S128x3586_o0_1_S128x3584 (ix2 p q) _ (fun a => match a with
    | ⟨0, _⟩ => by show p.val = 0 + p.val; omega
    | ⟨1, _⟩ => by show q.val + 1 = 1 + q.val; omega)

/-- The slice from column offset 2, read at `(p, q)`. -/
theorem slice_at_2 (v0 : Vec F S128x3586 .f32) (p : Fin 128) (q : Fin 3584) :
    extractStridedSlice S128x3584 ![0, 2] v0 slices_S128x3586_o0_2_S128x3584 (ix2 p q) = v0 (ix2 p (⟨q.val + 2, by omega⟩ : Fin 3586)) :=
  extractStridedSlice_apply ![0, 2] v0 slices_S128x3586_o0_2_S128x3584 (ix2 p q) _ (fun a => match a with
    | ⟨0, _⟩ => by show p.val = 0 + p.val; omega
    | ⟨1, _⟩ => by show q.val + 2 = 2 + q.val; omega)

/-- The stored value at `(p, q)`: the three products of a weight row's entry `q` with the padded block's entries
    `(p, q)`, `(p, q + 1)`, `(p, q + 2)`, summed left to right, plus the bias row's entry `q`, clamped below at zero. -/
theorem pay_apply (v0 : Vec F S128x3586 .f32) (v2 v4 v6 v8 : Vec F S1x3584 .f32) (p : Fin 128) (q : Fin 3584) :
    k0_pay1 v0 v2 v4 v6 v8 (ix2 p q) =
      FloatOps.maximumf (FloatOps.addf (FloatOps.addf (FloatOps.addf
        (FloatOps.mulf (v2 (ix2 (0 : Fin 1) q)) (v0 (ix2 p (⟨q.val, by omega⟩ : Fin 3586))))
        (FloatOps.mulf (v4 (ix2 (0 : Fin 1) q)) (v0 (ix2 p (⟨q.val + 1, by omega⟩ : Fin 3586)))))
        (FloatOps.mulf (v6 (ix2 (0 : Fin 1) q)) (v0 (ix2 p (⟨q.val + 2, by omega⟩ : Fin 3586)))))
        (v8 (ix2 (0 : Fin 1) q))) (FloatOps.ofBits .f32 0x00000000#32) := by
  unfold k0_pay1
  simp only [shapeCast_self]
  show FloatOps.maximumf (FloatOps.addf (FloatOps.addf (FloatOps.addf
        (FloatOps.mulf (broadcastTo S128x3584 v2 broadcasts_S1x3584_S128x3584 (ix2 p q)) (extractStridedSlice S128x3584 ![0, 0] v0 slices_S128x3586_o0_0_S128x3584 (ix2 p q)))
        (FloatOps.mulf (broadcastTo S128x3584 v4 broadcasts_S1x3584_S128x3584 (ix2 p q)) (extractStridedSlice S128x3584 ![0, 1] v0 slices_S128x3586_o0_1_S128x3584 (ix2 p q))))
        (FloatOps.mulf (broadcastTo S128x3584 v6 broadcasts_S1x3584_S128x3584 (ix2 p q)) (extractStridedSlice S128x3584 ![0, 2] v0 slices_S128x3586_o0_2_S128x3584 (ix2 p q))))
        (broadcastTo S128x3584 v8 broadcasts_S1x3584_S128x3584 (ix2 p q))) (FloatOps.ofBits .f32 0x00000000#32) = _
  rw [row_bcast, row_bcast, row_bcast, row_bcast, slice_at_0, slice_at_1, slice_at_2]

/-! ## The blocks of the region's arrays -/

variable (V : (c : Dev nD) → (b : Ref sig .tc) → Buf (Elt F) ((c : Thread nD τ).loc b))

theorem hz : (![0, 0] : Fin 2 → Nat) = fun _ => 0 := funext fun a => by fin_cases a <;> rfl

theorem hL : 3584 + 2 ≤ 3586 := by decide

/-- The printed index maps over the grid: the padded input and the output move by rows with the point, the stacked
    weights stay; the grid has two points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 2 :=
  (by decide +kernel : ∀ t : Fin grid0.N, _)

/-- The padded input array and the stacked weight array as the region finds them, and their blocks at a point. -/
abbrev xarr (c : Dev nD) : Vec F S256x3586 .f32 := V c main_v7
abbrev warr (c : Dev nD) : Vec F S4x3584 .f32 := V c main_v10
abbrev xblk (c : Dev nD) (t : Fin cfg0.N) : Vec F S128x3586 .f32 := iblk0 V c 0 t
abbrev wblk (c : Dev nD) (t : Fin cfg0.N) : Vec F S4x3584 .f32 := iblk0 V c 1 t

/-- Entry `(p, r)` of the padded input's block at point `t` is the array's entry `(128 t + p, r)`. -/
theorem xblk_apply (c : Dev nD) (t : Fin cfg0.N) (p : Fin 128) (r : Fin 3586) (h : t.val * 128 + p.val < 256) :
    xblk V c t (ix2 p r) = xarr V c (ix2 (⟨t.val * 128 + p.val, h⟩ : Fin 256) r) := by
  obtain ⟨e0, e1, -, -, -, -, -⟩ := idx_facts t
  show V c main_v7 (((cfg0.win 0).blk t).view.emb (ix2 p r)) = V c main_v7 (ix2 (⟨t.val * 128 + p.val, h⟩ : Fin 256) r)
  refine congrArg (V c main_v7) ?_
  funext a; apply Fin.ext
  match a with
  | ⟨0, _⟩ => show win0_0.index t (0 : Fin 2) * 128 + 1 * p.val = t.val * 128 + p.val; omega
  | ⟨1, _⟩ => show win0_0.index t (1 : Fin 2) * 3586 + 1 * r.val = r.val; omega

/-- The stacked weights' block at every point is the whole array. -/
theorem wblk_apply (c : Dev nD) (t : Fin cfg0.N) (k : Fin 4) (q : Fin 3584) :
    wblk V c t (ix2 k q) = warr V c (ix2 k q) := by
  obtain ⟨-, -, e2, e3, -, -, -⟩ := idx_facts t
  show V c main_v10 (((cfg0.win 1).blk t).view.emb (ix2 k q)) = V c main_v10 (ix2 k q)
  refine congrArg (V c main_v10) ?_
  funext a; apply Fin.ext
  match a with
  | ⟨0, _⟩ => show win0_1.index t (0 : Fin 2) * 4 + 1 * k.val = k.val; omega
  | ⟨1, _⟩ => show win0_1.index t (1 : Fin 2) * 3584 + 1 * q.val = q.val; omega

/-- The body's four row loads of the stacked weights: row `k` of the block, read at column `q`. -/
theorem ld_row_0 (x1 : Vec F S4x3584 .f32) (q : Fin 3584) :
    View.ld x1 r0_1 (ix2 (0 : Fin 1) q) = x1 (ix2 (0 : Fin 4) q) := by
  show x1 _ = x1 _
  refine congrArg x1 ?_
  funext a; apply Fin.ext
  match a with
  | ⟨0, _⟩ => show 0 + 1 * 0 = 0; omega
  | ⟨1, _⟩ => show 0 + 1 * q.val = q.val; omega

theorem ld_row_1 (x1 : Vec F S4x3584 .f32) (q : Fin 3584) :
    View.ld x1 r0_2 (ix2 (0 : Fin 1) q) = x1 (ix2 (1 : Fin 4) q) := by
  show x1 _ = x1 _
  refine congrArg x1 ?_
  funext a; apply Fin.ext
  match a with
  | ⟨0, _⟩ => show 1 + 1 * 0 = 1; omega
  | ⟨1, _⟩ => show 0 + 1 * q.val = q.val; omega

theorem ld_row_2 (x1 : Vec F S4x3584 .f32) (q : Fin 3584) :
    View.ld x1 r0_3 (ix2 (0 : Fin 1) q) = x1 (ix2 (2 : Fin 4) q) := by
  show x1 _ = x1 _
  refine congrArg x1 ?_
  funext a; apply Fin.ext
  match a with
  | ⟨0, _⟩ => show 2 + 1 * 0 = 2; omega
  | ⟨1, _⟩ => show 0 + 1 * q.val = q.val; omega

theorem ld_row_3 (x1 : Vec F S4x3584 .f32) (q : Fin 3584) :
    View.ld x1 r0_4 (ix2 (0 : Fin 1) q) = x1 (ix2 (3 : Fin 4) q) := by
  show x1 _ = x1 _
  refine congrArg x1 ?_
  funext a; apply Fin.ext
  match a with
  | ⟨0, _⟩ => show 3 + 1 * 0 = 3; omega
  | ⟨1, _⟩ => show 0 + 1 * q.val = q.val; omega

/-! ## From the blocks to the array -/

/-- What point `t` writes back is block `t` of the whole array of clamped three-tap sums of the two input arrays. -/
theorem flushed_eq (c : Dev nD) (t : Fin cfg0.N) :
    (dat0 V c).flushed 2 t
      = ((cfg0.win 2).blk t).view.read (Elt F) (Cert.Taps.tapG (B := 256) (L := 3584) (L2 := 3586) hL (xarr V c) (warr V c)) := by
  show (cfg0.win 2).cut (grid0.coords t) ((dat0 V c).after 2 t) = _
  rw [after0_2]
  unfold out0_2
  rw [View.canon_unit_zero hz]
  simp only [View.ld_unit_zero (S := S128x3586) hz]
  obtain ⟨-, -, -, -, e4, e5, ht⟩ := idx_facts t
  funext j
  obtain ⟨p, q, rfl⟩ : ∃ (p : Fin 128) (q : Fin 3584), j = ix2 p q := ⟨j 0, j 1, eq_ix2 j⟩
  have hp : t.val * 128 + p.val < 256 := by omega
  show k0_pay1 (xblk V c t) (View.ld (wblk V c t) r0_1) (View.ld (wblk V c t) r0_2) (View.ld (wblk V c t) r0_3) (View.ld (wblk V c t) r0_4) (ix2 p q)
    = Cert.Taps.tapG (B := 256) (L := 3584) (L2 := 3586) hL (xarr V c) (warr V c) (((cfg0.win 2).blk t).view.emb (ix2 p q))
  have hemb : ((cfg0.win 2).blk t).view.emb (ix2 p q) = ix2 (⟨t.val * 128 + p.val, hp⟩ : Fin 256) q := by
    funext a; apply Fin.ext
    match a with
    | ⟨0, _⟩ => show win0_2.index t (0 : Fin 2) * 128 + 1 * p.val = t.val * 128 + p.val; omega
    | ⟨1, _⟩ => show win0_2.index t (1 : Fin 2) * 3584 + 1 * q.val = q.val; omega
  rw [hemb, Cert.Taps.tapG_apply]
  refine (pay_apply (xblk V c t) (View.ld (wblk V c t) r0_1) (View.ld (wblk V c t) r0_2) (View.ld (wblk V c t) r0_3) (View.ld (wblk V c t) r0_4) p q).trans ?_
  rw [ld_row_0, ld_row_1, ld_row_2, ld_row_3, wblk_apply, wblk_apply, wblk_apply, wblk_apply,
    xblk_apply V c t p _ hp, xblk_apply V c t p _ hp, xblk_apply V c t p _ hp]
  rfl

/-- An index of the output array is in point `t`'s block iff each coordinate is in the block's range on its axis. -/
theorem mem_blk (t : Fin cfg0.N) (i : S256x3584.Idx) :
    i ∈ ((cfg0.win 2).blk t).view.set ↔ ∀ a : Fin 2, win0_2.index t a * S128x3584.size a ≤ (i a).val ∧ (i a).val < win0_2.index t a * S128x3584.size a + S128x3584.size a := by
  show i ∈ ((View.whole main_v11).slice (win0_2.rect t)).set ↔ _
  rw [View.set_slice_whole, Rect.mem_set_unit]
  exact Iff.rfl

/-- Row `r` of the output is written back by the point `r / 128`. -/
theorem cover (i : S256x3584.Idx) : ∃ t : Fin cfg0.N, (cfg0.win 2).flush t = true ∧ i ∈ ((cfg0.win 2).blk t).view.set := by
  have hi0 : (i 0).val < 256 := (i 0).isLt
  have hi1 : (i 1).val < 3584 := (i 1).isLt
  have hN : grid0.N = 2 := N_0
  have hlt : (i 0).val / 128 < grid0.N := by omega
  obtain ⟨-, -, -, -, e4, e5, ht⟩ := idx_facts ⟨(i 0).val / 128, hlt⟩
  refine ⟨⟨(i 0).val / 128, hlt⟩, flush0_2 _, ?_⟩
  rw [mem_blk]
  intro a
  match a with
  | ⟨0, _⟩ =>
    show win0_2.index ⟨(i 0).val / 128, hlt⟩ (0 : Fin 2) * 128 ≤ (i 0).val ∧ (i 0).val < win0_2.index ⟨(i 0).val / 128, hlt⟩ (0 : Fin 2) * 128 + 128
    rw [e4]; show (i 0).val / 128 * 128 ≤ (i 0).val ∧ (i 0).val < (i 0).val / 128 * 128 + 128; omega
  | ⟨1, _⟩ =>
    show win0_2.index ⟨(i 0).val / 128, hlt⟩ (1 : Fin 2) * 3584 ≤ (i 1).val ∧ (i 1).val < win0_2.index ⟨(i 0).val / 128, hlt⟩ (1 : Fin 2) * 3584 + 3584
    rw [e5]; omega

/-- After the region the output array holds the clamped three-tap sums of the two input arrays as the region found them. -/
theorem value (c : Dev nD) :
    (dat0 V c).arrAt 2 cfg0.N = Cert.Taps.tapG (B := 256) (L := 3584) (L2 := 3586) hL (xarr V c) (warr V c) :=
  (dat0 V c).arrAt_eq_of_cover 2 (Cert.Taps.tapG (B := 256) (L := 3584) (L2 := 3586) hL (xarr V c) (warr V c)) (fun t _ => flushed_eq V c t) cover

end Cert.KernelIdeal.Region0

end
-- ==== Proof.KRegion1.lean ====
/-
  Region 1 (the second of the three pallas_calls, the longitude layer): what its output array holds when the region ends.
  The grid has two points; point `t` stages rows `128 t … 128 t + 127` of the padded `256 × 2722` input and the whole
  `4 × 2720` stacked weight array, and writes back rows `128 t … 128 t + 127` of the `256 × 2720` output. The body's one
  store is, entry by entry, the clamped three-tap sum of `Cert.Taps` of its two loaded blocks (`pay_apply`), a block
  entry `(p, q)` is the array entry `(128 t + p, q)` (`xblk_apply`, `wblk_apply`), so point `t` writes back block `t` of
  ONE whole-array function (`flushed_eq`); the two blocks cover the output (`cover`: row `r` belongs to point
  `r / 128`), hence the array ends at that function (`value`). Stated at the region's entry contents `V`, at any float
  instance.
-/
import proofs.«167332_j3393024163963_1_alg».proof.Proof.Gen.KernelIdeal.Frame
import proofs.«167332_j3393024163963_1_alg».proof.Proof.TapSpec
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat Cfg Window)

variable {F : FTy → Type} [FloatOps F]

/-! ## The body's payload at an index -/

/-- A weight row broadcast down the 128 rows of a block, read at `(p, q)`, is the row at `q`. -/
theorem row_bcast (v : Vec F S1x2720 .f32) (p : Fin 128) (q : Fin 2720) :
    broadcastTo S128x2720 v broadcasts_S1x2720_S128x2720 (ix2 p q) = v (ix2 (0 : Fin 1) q) :=
  broadcastTo_apply v broadcasts_S1x2720_S128x2720 (ix2 p q) (ix2 (0 : Fin 1) q) (fun a => match a with
    | ⟨0, _⟩ => by show (0 : Nat) = if (1 : Nat) = 1 then 0 else p.val; rw [if_pos rfl]
    | ⟨1, _⟩ => by show q.val = if (2720 : Nat) = 1 then 0 else q.val; rw [if_neg (by decide)])

/-- The slice of the padded block from column offset 0, read at `(p, q)`. -/
theorem slice_at_0 (v0 : Vec F S128x2722 .f32) (p : Fin 128) (q : Fin 2720) :
    extractStridedSlice S128x2720 ![0, 0] v0 slices_S128x2722_o0_0_S128x2720 (ix2 p q) = v0 (ix2 p (⟨q.val, by omega⟩ : Fin 2722)) :=
  extractStridedSlice_apply ![0, 0] v0 slices_S128x2722_o0_0_S128x2720 (ix2 p q) _ (fun a => match a with
    | ⟨0, _⟩ => by show p.val = 0 + p.val; omega
    | ⟨1, _⟩ => by show q.val = 0 + q.val; omega)

/-- The slice from column offset 1, read at `(p, q)`. -/
theorem slice_at_1 (v0 : Vec F S128x2722 .f32) (p : Fin 128) (q : Fin 2720) :
    extractStridedSlice S128x2720 ![0, 1] v0 slices_S128x2722_o0_1_S128x2720 (ix2 p q) = v0 (ix2 p (⟨q.val + 1, by omega⟩ : Fin 2722)) :=
  extractStridedSlice_apply ![0, 1] v0 slices_S128x2722_o0_1_S128x2720 (ix2 p q) _ (fun a => match a with
    | ⟨0, _⟩ => by show p.val = 0 + p.val; omega
    | ⟨1, _⟩ => by show q.val + 1 = 1 + q.val; omega)

/-- The slice from column offset 2, read at `(p, q)`. -/
theorem slice_at_2 (v0 : Vec F S128x2722 .f32) (p : Fin 128) (q : Fin 2720) :
    extractStridedSlice S128x2720 ![0, 2] v0 slices_S128x2722_o0_2_S128x2720 (ix2 p q) = v0 (ix2 p (⟨q.val + 2, by omega⟩ : Fin 2722)) :=
  extractStridedSlice_apply ![0, 2] v0 slices_S128x2722_o0_2_S128x2720 (ix2 p q) _ (fun a => match a with
    | ⟨0, _⟩ => by show p.val = 0 + p.val; omega
    | ⟨1, _⟩ => by show q.val + 2 = 2 + q.val; omega)

/-- The stored value at `(p, q)`: the three products of a weight row's entry `q` with the padded block's entries
    `(p, q)`, `(p, q + 1)`, `(p, q + 2)`, summed left to right, plus the bias row's entry `q`, clamped below at zero. -/
theorem pay_apply (v0 : Vec F S128x2722 .f32) (v2 v4 v6 v8 : Vec F S1x2720 .f32) (p : Fin 128) (q : Fin 2720) :
    k1_pay1 v0 v2 v4 v6 v8 (ix2 p q) =
      FloatOps.maximumf (FloatOps.addf (FloatOps.addf (FloatOps.addf
        (FloatOps.mulf (v2 (ix2 (0 : Fin 1) q)) (v0 (ix2 p (⟨q.val, by omega⟩ : Fin 2722))))
        (FloatOps.mulf (v4 (ix2 (0 : Fin 1) q)) (v0 (ix2 p (⟨q.val + 1, by omega⟩ : Fin 2722)))))
        (FloatOps.mulf (v6 (ix2 (0 : Fin 1) q)) (v0 (ix2 p (⟨q.val + 2, by omega⟩ : Fin 2722)))))
        (v8 (ix2 (0 : Fin 1) q))) (FloatOps.ofBits .f32 0x00000000#32) := by
  unfold k1_pay1
  simp only [shapeCast_self]
  show FloatOps.maximumf (FloatOps.addf (FloatOps.addf (FloatOps.addf
        (FloatOps.mulf (broadcastTo S128x2720 v2 broadcasts_S1x2720_S128x2720 (ix2 p q)) (extractStridedSlice S128x2720 ![0, 0] v0 slices_S128x2722_o0_0_S128x2720 (ix2 p q)))
        (FloatOps.mulf (broadcastTo S128x2720 v4 broadcasts_S1x2720_S128x2720 (ix2 p q)) (extractStridedSlice S128x2720 ![0, 1] v0 slices_S128x2722_o0_1_S128x2720 (ix2 p q))))
        (FloatOps.mulf (broadcastTo S128x2720 v6 broadcasts_S1x2720_S128x2720 (ix2 p q)) (extractStridedSlice S128x2720 ![0, 2] v0 slices_S128x2722_o0_2_S128x2720 (ix2 p q))))
        (broadcastTo S128x2720 v8 broadcasts_S1x2720_S128x2720 (ix2 p q))) (FloatOps.ofBits .f32 0x00000000#32) = _
  rw [row_bcast, row_bcast, row_bcast, row_bcast, slice_at_0, slice_at_1, slice_at_2]

/-! ## The blocks of the region's arrays -/

variable (V : (c : Dev nD) → (b : Ref sig .tc) → Buf (Elt F) ((c : Thread nD τ).loc b))

theorem hz : (![0, 0] : Fin 2 → Nat) = fun _ => 0 := funext fun a => by fin_cases a <;> rfl

theorem hL : 2720 + 2 ≤ 2722 := by decide

/-- The printed index maps over the grid: the padded input and the output move by rows with the point, the stacked
    weights stay; the grid has two points. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 2 :=
  (by decide +kernel : ∀ t : Fin grid1.N, _)

/-- The padded input array and the stacked weight array as the region finds them, and their blocks at a point. -/
abbrev xarr (c : Dev nD) : Vec F S256x2722 .f32 := V c main_v17
abbrev warr (c : Dev nD) : Vec F S4x2720 .f32 := V c main_v20
abbrev xblk (c : Dev nD) (t : Fin cfg1.N) : Vec F S128x2722 .f32 := iblk1 V c 0 t
abbrev wblk (c : Dev nD) (t : Fin cfg1.N) : Vec F S4x2720 .f32 := iblk1 V c 1 t

/-- Entry `(p, r)` of the padded input's block at point `t` is the array's entry `(128 t + p, r)`. -/
theorem xblk_apply (c : Dev nD) (t : Fin cfg1.N) (p : Fin 128) (r : Fin 2722) (h : t.val * 128 + p.val < 256) :
    xblk V c t (ix2 p r) = xarr V c (ix2 (⟨t.val * 128 + p.val, h⟩ : Fin 256) r) := by
  obtain ⟨e0, e1, -, -, -, -, -⟩ := idx_facts t
  show V c main_v17 (((cfg1.win 0).blk t).view.emb (ix2 p r)) = V c main_v17 (ix2 (⟨t.val * 128 + p.val, h⟩ : Fin 256) r)
  refine congrArg (V c main_v17) ?_
  funext a; apply Fin.ext
  match a with
  | ⟨0, _⟩ => show win1_0.index t (0 : Fin 2) * 128 + 1 * p.val = t.val * 128 + p.val; omega
  | ⟨1, _⟩ => show win1_0.index t (1 : Fin 2) * 2722 + 1 * r.val = r.val; omega

/-- The stacked weights' block at every point is the whole array. -/
theorem wblk_apply (c : Dev nD) (t : Fin cfg1.N) (k : Fin 4) (q : Fin 2720) :
    wblk V c t (ix2 k q) = warr V c (ix2 k q) := by
  obtain ⟨-, -, e2, e3, -, -, -⟩ := idx_facts t
  show V c main_v20 (((cfg1.win 1).blk t).view.emb (ix2 k q)) = V c main_v20 (ix2 k q)
  refine congrArg (V c main_v20) ?_
  funext a; apply Fin.ext
  match a with
  | ⟨0, _⟩ => show win1_1.index t (0 : Fin 2) * 4 + 1 * k.val = k.val; omega
  | ⟨1, _⟩ => show win1_1.index t (1 : Fin 2) * 2720 + 1 * q.val = q.val; omega

/-- The body's four row loads of the stacked weights: row `k` of the block, read at column `q`. -/
theorem ld_row_0 (x1 : Vec F S4x2720 .f32) (q : Fin 2720) :
    View.ld x1 r1_1 (ix2 (0 : Fin 1) q) = x1 (ix2 (0 : Fin 4) q) := by
  show x1 _ = x1 _
  refine congrArg x1 ?_
  funext a; apply Fin.ext
  match a with
  | ⟨0, _⟩ => show 0 + 1 * 0 = 0; omega
  | ⟨1, _⟩ => show 0 + 1 * q.val = q.val; omega

theorem ld_row_1 (x1 : Vec F S4x2720 .f32) (q : Fin 2720) :
    View.ld x1 r1_2 (ix2 (0 : Fin 1) q) = x1 (ix2 (1 : Fin 4) q) := by
  show x1 _ = x1 _
  refine congrArg x1 ?_
  funext a; apply Fin.ext
  match a with
  | ⟨0, _⟩ => show 1 + 1 * 0 = 1; omega
  | ⟨1, _⟩ => show 0 + 1 * q.val = q.val; omega

theorem ld_row_2 (x1 : Vec F S4x2720 .f32) (q : Fin 2720) :
    View.ld x1 r1_3 (ix2 (0 : Fin 1) q) = x1 (ix2 (2 : Fin 4) q) := by
  show x1 _ = x1 _
  refine congrArg x1 ?_
  funext a; apply Fin.ext
  match a with
  | ⟨0, _⟩ => show 2 + 1 * 0 = 2; omega
  | ⟨1, _⟩ => show 0 + 1 * q.val = q.val; omega

theorem ld_row_3 (x1 : Vec F S4x2720 .f32) (q : Fin 2720) :
    View.ld x1 r1_4 (ix2 (0 : Fin 1) q) = x1 (ix2 (3 : Fin 4) q) := by
  show x1 _ = x1 _
  refine congrArg x1 ?_
  funext a; apply Fin.ext
  match a with
  | ⟨0, _⟩ => show 3 + 1 * 0 = 3; omega
  | ⟨1, _⟩ => show 0 + 1 * q.val = q.val; omega

/-! ## From the blocks to the array -/

/-- What point `t` writes back is block `t` of the whole array of clamped three-tap sums of the two input arrays. -/
theorem flushed_eq (c : Dev nD) (t : Fin cfg1.N) :
    (dat1 V c).flushed 2 t
      = ((cfg1.win 2).blk t).view.read (Elt F) (Cert.Taps.tapG (B := 256) (L := 2720) (L2 := 2722) hL (xarr V c) (warr V c)) := by
  show (cfg1.win 2).cut (grid1.coords t) ((dat1 V c).after 2 t) = _
  rw [after1_2]
  unfold out1_2
  rw [View.canon_unit_zero hz]
  simp only [View.ld_unit_zero (S := S128x2722) hz]
  obtain ⟨-, -, -, -, e4, e5, ht⟩ := idx_facts t
  funext j
  obtain ⟨p, q, rfl⟩ : ∃ (p : Fin 128) (q : Fin 2720), j = ix2 p q := ⟨j 0, j 1, eq_ix2 j⟩
  have hp : t.val * 128 + p.val < 256 := by omega
  show k1_pay1 (xblk V c t) (View.ld (wblk V c t) r1_1) (View.ld (wblk V c t) r1_2) (View.ld (wblk V c t) r1_3) (View.ld (wblk V c t) r1_4) (ix2 p q)
    = Cert.Taps.tapG (B := 256) (L := 2720) (L2 := 2722) hL (xarr V c) (warr V c) (((cfg1.win 2).blk t).view.emb (ix2 p q))
  have hemb : ((cfg1.win 2).blk t).view.emb (ix2 p q) = ix2 (⟨t.val * 128 + p.val, hp⟩ : Fin 256) q := by
    funext a; apply Fin.ext
    match a with
    | ⟨0, _⟩ => show win1_2.index t (0 : Fin 2) * 128 + 1 * p.val = t.val * 128 + p.val; omega
    | ⟨1, _⟩ => show win1_2.index t (1 : Fin 2) * 2720 + 1 * q.val = q.val; omega
  rw [hemb, Cert.Taps.tapG_apply]
  refine (pay_apply (xblk V c t) (View.ld (wblk V c t) r1_1) (View.ld (wblk V c t) r1_2) (View.ld (wblk V c t) r1_3) (View.ld (wblk V c t) r1_4) p q).trans ?_
  rw [ld_row_0, ld_row_1, ld_row_2, ld_row_3, wblk_apply, wblk_apply, wblk_apply, wblk_apply,
    xblk_apply V c t p _ hp, xblk_apply V c t p _ hp, xblk_apply V c t p _ hp]
  rfl

/-- An index of the output array is in point `t`'s block iff each coordinate is in the block's range on its axis. -/
theorem mem_blk (t : Fin cfg1.N) (i : S256x2720.Idx) :
    i ∈ ((cfg1.win 2).blk t).view.set ↔ ∀ a : Fin 2, win1_2.index t a * S128x2720.size a ≤ (i a).val ∧ (i a).val < win1_2.index t a * S128x2720.size a + S128x2720.size a := by
  show i ∈ ((View.whole main_v21).slice (win1_2.rect t)).set ↔ _
  rw [View.set_slice_whole, Rect.mem_set_unit]
  exact Iff.rfl

/-- Row `r` of the output is written back by the point `r / 128`. -/
theorem cover (i : S256x2720.Idx) : ∃ t : Fin cfg1.N, (cfg1.win 2).flush t = true ∧ i ∈ ((cfg1.win 2).blk t).view.set := by
  have hi0 : (i 0).val < 256 := (i 0).isLt
  have hi1 : (i 1).val < 2720 := (i 1).isLt
  have hN : grid1.N = 2 := N_1
  have hlt : (i 0).val / 128 < grid1.N := by omega
  obtain ⟨-, -, -, -, e4, e5, ht⟩ := idx_facts ⟨(i 0).val / 128, hlt⟩
  refine ⟨⟨(i 0).val / 128, hlt⟩, flush1_2 _, ?_⟩
  rw [mem_blk]
  intro a
  match a with
  | ⟨0, _⟩ =>
    show win1_2.index ⟨(i 0).val / 128, hlt⟩ (0 : Fin 2) * 128 ≤ (i 0).val ∧ (i 0).val < win1_2.index ⟨(i 0).val / 128, hlt⟩ (0 : Fin 2) * 128 + 128
    rw [e4]; show (i 0).val / 128 * 128 ≤ (i 0).val ∧ (i 0).val < (i 0).val / 128 * 128 + 128; omega
  | ⟨1, _⟩ =>
    show win1_2.index ⟨(i 0).val / 128, hlt⟩ (1 : Fin 2) * 2720 ≤ (i 1).val ∧ (i 1).val < win1_2.index ⟨(i 0).val / 128, hlt⟩ (1 : Fin 2) * 2720 + 2720
    rw [e5]; omega

/-- After the region the output array holds the clamped three-tap sums of the two input arrays as the region found them. -/
theorem value (c : Dev nD) :
    (dat1 V c).arrAt 2 cfg1.N = Cert.Taps.tapG (B := 256) (L := 2720) (L2 := 2722) hL (xarr V c) (warr V c) :=
  (dat1 V c).arrAt_eq_of_cover 2 (Cert.Taps.tapG (B := 256) (L := 2720) (L2 := 2722) hL (xarr V c) (warr V c)) (fun t _ => flushed_eq V c t) cover

end Cert.KernelIdeal.Region1

end
-- ==== Proof.KRegion2.lean ====
/-
  Region 2 (the third of the three pallas_calls, the latitude layer): what its output array holds when the region ends.
  The grid has two points; point `t` stages rows `128 t … 128 t + 127` of the padded `256 × 2882` input and the whole
  `4 × 2880` stacked weight array, and writes back rows `128 t … 128 t + 127` of the `256 × 2880` output. The body's one
  store is, entry by entry, the clamped three-tap sum of `Cert.Taps` of its two loaded blocks (`pay_apply`), a block
  entry `(p, q)` is the array entry `(128 t + p, q)` (`xblk_apply`, `wblk_apply`), so point `t` writes back block `t` of
  ONE whole-array function (`flushed_eq`); the two blocks cover the output (`cover`: row `r` belongs to point
  `r / 128`), hence the array ends at that function (`value`). Stated at the region's entry contents `V`, at any float
  instance.
-/
import proofs.«167332_j3393024163963_1_alg».proof.Proof.Gen.KernelIdeal.Frame
import proofs.«167332_j3393024163963_1_alg».proof.Proof.TapSpec
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat Cfg Window)

variable {F : FTy → Type} [FloatOps F]

/-! ## The body's payload at an index -/

/-- A weight row broadcast down the 128 rows of a block, read at `(p, q)`, is the row at `q`. -/
theorem row_bcast (v : Vec F S1x2880 .f32) (p : Fin 128) (q : Fin 2880) :
    broadcastTo S128x2880 v broadcasts_S1x2880_S128x2880 (ix2 p q) = v (ix2 (0 : Fin 1) q) :=
  broadcastTo_apply v broadcasts_S1x2880_S128x2880 (ix2 p q) (ix2 (0 : Fin 1) q) (fun a => match a with
    | ⟨0, _⟩ => by show (0 : Nat) = if (1 : Nat) = 1 then 0 else p.val; rw [if_pos rfl]
    | ⟨1, _⟩ => by show q.val = if (2880 : Nat) = 1 then 0 else q.val; rw [if_neg (by decide)])

/-- The slice of the padded block from column offset 0, read at `(p, q)`. -/
theorem slice_at_0 (v0 : Vec F S128x2882 .f32) (p : Fin 128) (q : Fin 2880) :
    extractStridedSlice S128x2880 ![0, 0] v0 slices_S128x2882_o0_0_S128x2880 (ix2 p q) = v0 (ix2 p (⟨q.val, by omega⟩ : Fin 2882)) :=
  extractStridedSlice_apply ![0, 0] v0 slices_S128x2882_o0_0_S128x2880 (ix2 p q) _ (fun a => match a with
    | ⟨0, _⟩ => by show p.val = 0 + p.val; omega
    | ⟨1, _⟩ => by show q.val = 0 + q.val; omega)

/-- The slice from column offset 1, read at `(p, q)`. -/
theorem slice_at_1 (v0 : Vec F S128x2882 .f32) (p : Fin 128) (q : Fin 2880) :
    extractStridedSlice S128x2880 ![0, 1] v0 slices_S128x2882_o0_1_S128x2880 (ix2 p q) = v0 (ix2 p (⟨q.val + 1, by omega⟩ : Fin 2882)) :=
  extractStridedSlice_apply ![0, 1] v0 slices_S128x2882_o0_1_S128x2880 (ix2 p q) _ (fun a => match a with
    | ⟨0, _⟩ => by show p.val = 0 + p.val; omega
    | ⟨1, _⟩ => by show q.val + 1 = 1 + q.val; omega)

/-- The slice from column offset 2, read at `(p, q)`. -/
theorem slice_at_2 (v0 : Vec F S128x2882 .f32) (p : Fin 128) (q : Fin 2880) :
    extractStridedSlice S128x2880 ![0, 2] v0 slices_S128x2882_o0_2_S128x2880 (ix2 p q) = v0 (ix2 p (⟨q.val + 2, by omega⟩ : Fin 2882)) :=
  extractStridedSlice_apply ![0, 2] v0 slices_S128x2882_o0_2_S128x2880 (ix2 p q) _ (fun a => match a with
    | ⟨0, _⟩ => by show p.val = 0 + p.val; omega
    | ⟨1, _⟩ => by show q.val + 2 = 2 + q.val; omega)

/-- The stored value at `(p, q)`: the three products of a weight row's entry `q` with the padded block's entries
    `(p, q)`, `(p, q + 1)`, `(p, q + 2)`, summed left to right, plus the bias row's entry `q`, clamped below at zero. -/
theorem pay_apply (v0 : Vec F S128x2882 .f32) (v2 v4 v6 v8 : Vec F S1x2880 .f32) (p : Fin 128) (q : Fin 2880) :
    k2_pay1 v0 v2 v4 v6 v8 (ix2 p q) =
      FloatOps.maximumf (FloatOps.addf (FloatOps.addf (FloatOps.addf
        (FloatOps.mulf (v2 (ix2 (0 : Fin 1) q)) (v0 (ix2 p (⟨q.val, by omega⟩ : Fin 2882))))
        (FloatOps.mulf (v4 (ix2 (0 : Fin 1) q)) (v0 (ix2 p (⟨q.val + 1, by omega⟩ : Fin 2882)))))
        (FloatOps.mulf (v6 (ix2 (0 : Fin 1) q)) (v0 (ix2 p (⟨q.val + 2, by omega⟩ : Fin 2882)))))
        (v8 (ix2 (0 : Fin 1) q))) (FloatOps.ofBits .f32 0x00000000#32) := by
  unfold k2_pay1
  simp only [shapeCast_self]
  show FloatOps.maximumf (FloatOps.addf (FloatOps.addf (FloatOps.addf
        (FloatOps.mulf (broadcastTo S128x2880 v2 broadcasts_S1x2880_S128x2880 (ix2 p q)) (extractStridedSlice S128x2880 ![0, 0] v0 slices_S128x2882_o0_0_S128x2880 (ix2 p q)))
        (FloatOps.mulf (broadcastTo S128x2880 v4 broadcasts_S1x2880_S128x2880 (ix2 p q)) (extractStridedSlice S128x2880 ![0, 1] v0 slices_S128x2882_o0_1_S128x2880 (ix2 p q))))
        (FloatOps.mulf (broadcastTo S128x2880 v6 broadcasts_S1x2880_S128x2880 (ix2 p q)) (extractStridedSlice S128x2880 ![0, 2] v0 slices_S128x2882_o0_2_S128x2880 (ix2 p q))))
        (broadcastTo S128x2880 v8 broadcasts_S1x2880_S128x2880 (ix2 p q))) (FloatOps.ofBits .f32 0x00000000#32) = _
  rw [row_bcast, row_bcast, row_bcast, row_bcast, slice_at_0, slice_at_1, slice_at_2]

/-! ## The blocks of the region's arrays -/

variable (V : (c : Dev nD) → (b : Ref sig .tc) → Buf (Elt F) ((c : Thread nD τ).loc b))

theorem hz : (![0, 0] : Fin 2 → Nat) = fun _ => 0 := funext fun a => by fin_cases a <;> rfl

theorem hL : 2880 + 2 ≤ 2882 := by decide

/-- The printed index maps over the grid: the padded input and the output move by rows with the point, the stacked
    weights stay; the grid has two points. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 2 :=
  (by decide +kernel : ∀ t : Fin grid2.N, _)

/-- The padded input array and the stacked weight array as the region finds them, and their blocks at a point. -/
abbrev xarr (c : Dev nD) : Vec F S256x2882 .f32 := V c main_v27
abbrev warr (c : Dev nD) : Vec F S4x2880 .f32 := V c main_v30
abbrev xblk (c : Dev nD) (t : Fin cfg2.N) : Vec F S128x2882 .f32 := iblk2 V c 0 t
abbrev wblk (c : Dev nD) (t : Fin cfg2.N) : Vec F S4x2880 .f32 := iblk2 V c 1 t

/-- Entry `(p, r)` of the padded input's block at point `t` is the array's entry `(128 t + p, r)`. -/
theorem xblk_apply (c : Dev nD) (t : Fin cfg2.N) (p : Fin 128) (r : Fin 2882) (h : t.val * 128 + p.val < 256) :
    xblk V c t (ix2 p r) = xarr V c (ix2 (⟨t.val * 128 + p.val, h⟩ : Fin 256) r) := by
  obtain ⟨e0, e1, -, -, -, -, -⟩ := idx_facts t
  show V c main_v27 (((cfg2.win 0).blk t).view.emb (ix2 p r)) = V c main_v27 (ix2 (⟨t.val * 128 + p.val, h⟩ : Fin 256) r)
  refine congrArg (V c main_v27) ?_
  funext a; apply Fin.ext
  match a with
  | ⟨0, _⟩ => show win2_0.index t (0 : Fin 2) * 128 + 1 * p.val = t.val * 128 + p.val; omega
  | ⟨1, _⟩ => show win2_0.index t (1 : Fin 2) * 2882 + 1 * r.val = r.val; omega

/-- The stacked weights' block at every point is the whole array. -/
theorem wblk_apply (c : Dev nD) (t : Fin cfg2.N) (k : Fin 4) (q : Fin 2880) :
    wblk V c t (ix2 k q) = warr V c (ix2 k q) := by
  obtain ⟨-, -, e2, e3, -, -, -⟩ := idx_facts t
  show V c main_v30 (((cfg2.win 1).blk t).view.emb (ix2 k q)) = V c main_v30 (ix2 k q)
  refine congrArg (V c main_v30) ?_
  funext a; apply Fin.ext
  match a with
  | ⟨0, _⟩ => show win2_1.index t (0 : Fin 2) * 4 + 1 * k.val = k.val; omega
  | ⟨1, _⟩ => show win2_1.index t (1 : Fin 2) * 2880 + 1 * q.val = q.val; omega

/-- The body's four row loads of the stacked weights: row `k` of the block, read at column `q`. -/
theorem ld_row_0 (x1 : Vec F S4x2880 .f32) (q : Fin 2880) :
    View.ld x1 r2_1 (ix2 (0 : Fin 1) q) = x1 (ix2 (0 : Fin 4) q) := by
  show x1 _ = x1 _
  refine congrArg x1 ?_
  funext a; apply Fin.ext
  match a with
  | ⟨0, _⟩ => show 0 + 1 * 0 = 0; omega
  | ⟨1, _⟩ => show 0 + 1 * q.val = q.val; omega

theorem ld_row_1 (x1 : Vec F S4x2880 .f32) (q : Fin 2880) :
    View.ld x1 r2_2 (ix2 (0 : Fin 1) q) = x1 (ix2 (1 : Fin 4) q) := by
  show x1 _ = x1 _
  refine congrArg x1 ?_
  funext a; apply Fin.ext
  match a with
  | ⟨0, _⟩ => show 1 + 1 * 0 = 1; omega
  | ⟨1, _⟩ => show 0 + 1 * q.val = q.val; omega

theorem ld_row_2 (x1 : Vec F S4x2880 .f32) (q : Fin 2880) :
    View.ld x1 r2_3 (ix2 (0 : Fin 1) q) = x1 (ix2 (2 : Fin 4) q) := by
  show x1 _ = x1 _
  refine congrArg x1 ?_
  funext a; apply Fin.ext
  match a with
  | ⟨0, _⟩ => show 2 + 1 * 0 = 2; omega
  | ⟨1, _⟩ => show 0 + 1 * q.val = q.val; omega

theorem ld_row_3 (x1 : Vec F S4x2880 .f32) (q : Fin 2880) :
    View.ld x1 r2_4 (ix2 (0 : Fin 1) q) = x1 (ix2 (3 : Fin 4) q) := by
  show x1 _ = x1 _
  refine congrArg x1 ?_
  funext a; apply Fin.ext
  match a with
  | ⟨0, _⟩ => show 3 + 1 * 0 = 3; omega
  | ⟨1, _⟩ => show 0 + 1 * q.val = q.val; omega

/-! ## From the blocks to the array -/

/-- What point `t` writes back is block `t` of the whole array of clamped three-tap sums of the two input arrays. -/
theorem flushed_eq (c : Dev nD) (t : Fin cfg2.N) :
    (dat2 V c).flushed 2 t
      = ((cfg2.win 2).blk t).view.read (Elt F) (Cert.Taps.tapG (B := 256) (L := 2880) (L2 := 2882) hL (xarr V c) (warr V c)) := by
  show (cfg2.win 2).cut (grid2.coords t) ((dat2 V c).after 2 t) = _
  rw [after2_2]
  unfold out2_2
  rw [View.canon_unit_zero hz]
  simp only [View.ld_unit_zero (S := S128x2882) hz]
  obtain ⟨-, -, -, -, e4, e5, ht⟩ := idx_facts t
  funext j
  obtain ⟨p, q, rfl⟩ : ∃ (p : Fin 128) (q : Fin 2880), j = ix2 p q := ⟨j 0, j 1, eq_ix2 j⟩
  have hp : t.val * 128 + p.val < 256 := by omega
  show k2_pay1 (xblk V c t) (View.ld (wblk V c t) r2_1) (View.ld (wblk V c t) r2_2) (View.ld (wblk V c t) r2_3) (View.ld (wblk V c t) r2_4) (ix2 p q)
    = Cert.Taps.tapG (B := 256) (L := 2880) (L2 := 2882) hL (xarr V c) (warr V c) (((cfg2.win 2).blk t).view.emb (ix2 p q))
  have hemb : ((cfg2.win 2).blk t).view.emb (ix2 p q) = ix2 (⟨t.val * 128 + p.val, hp⟩ : Fin 256) q := by
    funext a; apply Fin.ext
    match a with
    | ⟨0, _⟩ => show win2_2.index t (0 : Fin 2) * 128 + 1 * p.val = t.val * 128 + p.val; omega
    | ⟨1, _⟩ => show win2_2.index t (1 : Fin 2) * 2880 + 1 * q.val = q.val; omega
  rw [hemb, Cert.Taps.tapG_apply]
  refine (pay_apply (xblk V c t) (View.ld (wblk V c t) r2_1) (View.ld (wblk V c t) r2_2) (View.ld (wblk V c t) r2_3) (View.ld (wblk V c t) r2_4) p q).trans ?_
  rw [ld_row_0, ld_row_1, ld_row_2, ld_row_3, wblk_apply, wblk_apply, wblk_apply, wblk_apply,
    xblk_apply V c t p _ hp, xblk_apply V c t p _ hp, xblk_apply V c t p _ hp]
  rfl

/-- An index of the output array is in point `t`'s block iff each coordinate is in the block's range on its axis. -/
theorem mem_blk (t : Fin cfg2.N) (i : S256x2880.Idx) :
    i ∈ ((cfg2.win 2).blk t).view.set ↔ ∀ a : Fin 2, win2_2.index t a * S128x2880.size a ≤ (i a).val ∧ (i a).val < win2_2.index t a * S128x2880.size a + S128x2880.size a := by
  show i ∈ ((View.whole main_v31).slice (win2_2.rect t)).set ↔ _
  rw [View.set_slice_whole, Rect.mem_set_unit]
  exact Iff.rfl

/-- Row `r` of the output is written back by the point `r / 128`. -/
theorem cover (i : S256x2880.Idx) : ∃ t : Fin cfg2.N, (cfg2.win 2).flush t = true ∧ i ∈ ((cfg2.win 2).blk t).view.set := by
  have hi0 : (i 0).val < 256 := (i 0).isLt
  have hi1 : (i 1).val < 2880 := (i 1).isLt
  have hN : grid2.N = 2 := N_2
  have hlt : (i 0).val / 128 < grid2.N := by omega
  obtain ⟨-, -, -, -, e4, e5, ht⟩ := idx_facts ⟨(i 0).val / 128, hlt⟩
  refine ⟨⟨(i 0).val / 128, hlt⟩, flush2_2 _, ?_⟩
  rw [mem_blk]
  intro a
  match a with
  | ⟨0, _⟩ =>
    show win2_2.index ⟨(i 0).val / 128, hlt⟩ (0 : Fin 2) * 128 ≤ (i 0).val ∧ (i 0).val < win2_2.index ⟨(i 0).val / 128, hlt⟩ (0 : Fin 2) * 128 + 128
    rw [e4]; show (i 0).val / 128 * 128 ≤ (i 0).val ∧ (i 0).val < (i 0).val / 128 * 128 + 128; omega
  | ⟨1, _⟩ =>
    show win2_2.index ⟨(i 0).val / 128, hlt⟩ (1 : Fin 2) * 2880 ≤ (i 1).val ∧ (i 1).val < win2_2.index ⟨(i 0).val / 128, hlt⟩ (1 : Fin 2) * 2880 + 2880
    rw [e5]; omega

/-- After the region the output array holds the clamped three-tap sums of the two input arrays as the region found them. -/
theorem value (c : Dev nD) :
    (dat2 V c).arrAt 2 cfg2.N = Cert.Taps.tapG (B := 256) (L := 2880) (L2 := 2882) hL (xarr V c) (warr V c) :=
  (dat2 V c).arrAt_eq_of_cover 2 (Cert.Taps.tapG (B := 256) (L := 2880) (L2 := 2882) hL (xarr V c) (warr V c)) (fun t _ => flushed_eq V c t) cover

end Cert.KernelIdeal.Region2

end
-- ==== Proof.RefTaps0.lean ====
/-
  The reference's depth layer, read entry by entry. The reference spells the layer as host operations: it slices the
  three columns of the `3584 × 3` weight array, broadcasts each down the 256 rows, multiplies by the three unit-offset
  slices of the padded `256 × 3586` array, adds left to right, adds the broadcast bias and takes the maximum with a zero
  array. Chaining the read-at-an-index lemmas of its stages, entry `(p, q)` of the result is the clamped three-tap sum
  of `Cert.Taps` in its weight-array spelling, with the padded array left as it is computed (`val_main_v7`).
-/
import proofs.«167332_j3393024163963_1_alg».proof.Proof.Gen.ReferenceIdeal.Read
import proofs.«167332_j3393024163963_1_alg».proof.Proof.TapSpec

noncomputable section

namespace Cert.ReferenceIdeal.Stage0

open Cert.ReferenceIdeal Cert.ReferenceIdeal.Gen Cert.ReferenceIdeal.Read Idealize.ShloMosaic Idealize.ShloMosaic.TcCoe Idealize.SL.Sem Idealize.ShloMosaic.ValueIdx

variable {F : FTy → Type} [FloatOps F]

/-! ## The composed index maps of the stages, at `(p, q)` -/

/-- Column 0 of the weights, reshaped to a vector, as a row, broadcast down the rows: entry `(q, 0)`. -/
theorem widx_0 (p : Fin 256) (q : Fin 3584) :
    idx_main_v8 (idx_main_v9 (idx_main_v11 (idx_main_v12 (ix2 p q)))) = ix2 q (0 : Fin 3) := by
  funext a; apply Fin.ext
  match a with
  | ⟨0, _⟩ => show q.val / 1 = q.val; omega
  | ⟨1, _⟩ => show 0 = 0; rfl

/-- Column 1: entry `(q, 1)`. -/
theorem widx_1 (p : Fin 256) (q : Fin 3584) :
    idx_main_v14 (idx_main_v15 (idx_main_v17 (idx_main_v18 (ix2 p q)))) = ix2 q (1 : Fin 3) := by
  funext a; apply Fin.ext
  match a with
  | ⟨0, _⟩ => show q.val / 1 = q.val; omega
  | ⟨1, _⟩ => show 1 + 0 = 1; rfl

/-- Column 2: entry `(q, 2)`. -/
theorem widx_2 (p : Fin 256) (q : Fin 3584) :
    idx_main_v21 (idx_main_v22 (idx_main_v24 (idx_main_v25 (ix2 p q)))) = ix2 q (2 : Fin 3) := by
  funext a; apply Fin.ext
  match a with
  | ⟨0, _⟩ => show q.val / 1 = q.val; omega
  | ⟨1, _⟩ => show 2 + 0 = 2; rfl

/-- The bias as a row, broadcast down the rows: entry `q`. -/
theorem bidx (p : Fin 256) (q : Fin 3584) : idx_main_v28 (idx_main_v29 (ix2 p q)) = ix1 q := by
  funext a; apply Fin.ext
  match a with
  | ⟨0, _⟩ => rfl

/-- The three unit-offset slices of the padded array: entries `(p, q)`, `(p, q + 1)`, `(p, q + 2)`. -/
theorem xidx_0 (p : Fin 256) (q : Fin 3584) : idx_main_v10 (ix2 p q) = ix2 p (⟨q.val, by omega⟩ : Fin 3586) := by
  funext a; apply Fin.ext
  match a with
  | ⟨0, _⟩ => rfl
  | ⟨1, _⟩ => rfl

theorem xidx_1 (p : Fin 256) (q : Fin 3584) : idx_main_v16 (ix2 p q) = ix2 p (⟨q.val + 1, by omega⟩ : Fin 3586) := by
  funext a; apply Fin.ext
  match a with
  | ⟨0, _⟩ => rfl
  | ⟨1, _⟩ => show 1 + q.val = q.val + 1; omega

theorem xidx_2 (p : Fin 256) (q : Fin 3584) : idx_main_v23 (ix2 p q) = ix2 p (⟨q.val + 2, by omega⟩ : Fin 3586) := by
  funext a; apply Fin.ext
  match a with
  | ⟨0, _⟩ => rfl
  | ⟨1, _⟩ => show 2 + q.val = q.val + 2; omega

theorem hL : 3584 + 2 ≤ 3586 := by decide

/-! ## The layer -/

/-- The reference's layer result is the array of clamped three-tap sums of its padded array, its weights and its bias. -/
theorem value (x0 : (⟨S256x15x64x128x1, .f32⟩ : BufTy).Contents (Elt F)) (x1 : (⟨S3584x3, .f32⟩ : BufTy).Contents (Elt F)) (x2 : (⟨S3584, .f32⟩ : BufTy).Contents (Elt F)) :
    val_main_v31 (F := F) x0 x1 x2
      = Cert.Taps.tapGW (B := 256) (L := 3584) (L2 := 3586) hL (val_main_v7 (F := F) x0) x1 x2 := by
  funext i
  obtain ⟨p, q, rfl⟩ : ∃ (p : Fin 256) (q : Fin 3584), i = ix2 p q := ⟨i 0, i 1, eq_ix2 i⟩
  rw [Cert.Taps.tapGW_apply]
  rw [val_main_v31_apply, val_main_v30_apply, val_main_v27_apply, val_main_v20_apply, val_main_v13_apply, val_main_v19_apply, val_main_v26_apply,
    val_main_v12_apply, val_main_v11_apply, val_main_v9_apply, val_main_v8_apply, val_main_v10_apply,
    val_main_v18_apply, val_main_v17_apply, val_main_v15_apply, val_main_v14_apply, val_main_v16_apply,
    val_main_v25_apply, val_main_v24_apply, val_main_v22_apply, val_main_v21_apply, val_main_v23_apply,
    val_main_v29_apply, val_main_v28_apply, val_main_call2_v0_apply, val_main_call2_cst_apply]
  rw [widx_0, widx_1, widx_2, bidx, xidx_0, xidx_1, xidx_2]
  rfl

end Cert.ReferenceIdeal.Stage0

end
-- ==== Proof.RefTaps1.lean ====
/-
  The reference's longitude layer, read entry by entry. The reference spells the layer as host operations: it slices the
  three columns of the `2720 × 3` weight array, broadcasts each down the 256 rows, multiplies by the three unit-offset
  slices of the padded `256 × 2722` array, adds left to right, adds the broadcast bias and takes the maximum with a zero
  array. Chaining the read-at-an-index lemmas of its stages, entry `(p, q)` of the result is the clamped three-tap sum
  of `Cert.Taps` in its weight-array spelling, with the padded array left as it is computed (`val_main_v37`).
-/
import proofs.«167332_j3393024163963_1_alg».proof.Proof.Gen.ReferenceIdeal.Read
import proofs.«167332_j3393024163963_1_alg».proof.Proof.TapSpec

noncomputable section

namespace Cert.ReferenceIdeal.Stage1

open Cert.ReferenceIdeal Cert.ReferenceIdeal.Gen Cert.ReferenceIdeal.Read Idealize.ShloMosaic Idealize.ShloMosaic.TcCoe Idealize.SL.Sem Idealize.ShloMosaic.ValueIdx

variable {F : FTy → Type} [FloatOps F]

/-! ## The composed index maps of the stages, at `(p, q)` -/

/-- Column 0 of the weights, reshaped to a vector, as a row, broadcast down the rows: entry `(q, 0)`. -/
theorem widx_0 (p : Fin 256) (q : Fin 2720) :
    idx_main_v38 (idx_main_v39 (idx_main_v41 (idx_main_v42 (ix2 p q)))) = ix2 q (0 : Fin 3) := by
  funext a; apply Fin.ext
  match a with
  | ⟨0, _⟩ => show q.val / 1 = q.val; omega
  | ⟨1, _⟩ => show 0 = 0; rfl

/-- Column 1: entry `(q, 1)`. -/
theorem widx_1 (p : Fin 256) (q : Fin 2720) :
    idx_main_v44 (idx_main_v45 (idx_main_v47 (idx_main_v48 (ix2 p q)))) = ix2 q (1 : Fin 3) := by
  funext a; apply Fin.ext
  match a with
  | ⟨0, _⟩ => show q.val / 1 = q.val; omega
  | ⟨1, _⟩ => show 1 + 0 = 1; rfl

/-- Column 2: entry `(q, 2)`. -/
theorem widx_2 (p : Fin 256) (q : Fin 2720) :
    idx_main_v51 (idx_main_v52 (idx_main_v54 (idx_main_v55 (ix2 p q)))) = ix2 q (2 : Fin 3) := by
  funext a; apply Fin.ext
  match a with
  | ⟨0, _⟩ => show q.val / 1 = q.val; omega
  | ⟨1, _⟩ => show 2 + 0 = 2; rfl

/-- The bias as a row, broadcast down the rows: entry `q`. -/
theorem bidx (p : Fin 256) (q : Fin 2720) : idx_main_v58 (idx_main_v59 (ix2 p q)) = ix1 q := by
  funext a; apply Fin.ext
  match a with
  | ⟨0, _⟩ => rfl

/-- The three unit-offset slices of the padded array: entries `(p, q)`, `(p, q + 1)`, `(p, q + 2)`. -/
theorem xidx_0 (p : Fin 256) (q : Fin 2720) : idx_main_v40 (ix2 p q) = ix2 p (⟨q.val, by omega⟩ : Fin 2722) := by
  funext a; apply Fin.ext
  match a with
  | ⟨0, _⟩ => rfl
  | ⟨1, _⟩ => rfl

theorem xidx_1 (p : Fin 256) (q : Fin 2720) : idx_main_v46 (ix2 p q) = ix2 p (⟨q.val + 1, by omega⟩ : Fin 2722) := by
  funext a; apply Fin.ext
  match a with
  | ⟨0, _⟩ => rfl
  | ⟨1, _⟩ => show 1 + q.val = q.val + 1; omega

theorem xidx_2 (p : Fin 256) (q : Fin 2720) : idx_main_v53 (ix2 p q) = ix2 p (⟨q.val + 2, by omega⟩ : Fin 2722) := by
  funext a; apply Fin.ext
  match a with
  | ⟨0, _⟩ => rfl
  | ⟨1, _⟩ => show 2 + q.val = q.val + 2; omega

theorem hL : 2720 + 2 ≤ 2722 := by decide

/-! ## The layer -/

/-- The reference's layer result is the array of clamped three-tap sums of its padded array, its weights and its bias. -/
theorem value (x0 : (⟨S256x15x64x128x1, .f32⟩ : BufTy).Contents (Elt F)) (x1 : (⟨S3584x3, .f32⟩ : BufTy).Contents (Elt F)) (x2 : (⟨S3584, .f32⟩ : BufTy).Contents (Elt F)) (x3 : (⟨S2720x3, .f32⟩ : BufTy).Contents (Elt F)) (x4 : (⟨S2720, .f32⟩ : BufTy).Contents (Elt F)) :
    val_main_v61 (F := F) x0 x1 x2 x3 x4
      = Cert.Taps.tapGW (B := 256) (L := 2720) (L2 := 2722) hL (val_main_v37 (F := F) x0 x1 x2) x3 x4 := by
  funext i
  obtain ⟨p, q, rfl⟩ : ∃ (p : Fin 256) (q : Fin 2720), i = ix2 p q := ⟨i 0, i 1, eq_ix2 i⟩
  rw [Cert.Taps.tapGW_apply]
  rw [val_main_v61_apply, val_main_v60_apply, val_main_v57_apply, val_main_v50_apply, val_main_v43_apply, val_main_v49_apply, val_main_v56_apply,
    val_main_v42_apply, val_main_v41_apply, val_main_v39_apply, val_main_v38_apply, val_main_v40_apply,
    val_main_v48_apply, val_main_v47_apply, val_main_v45_apply, val_main_v44_apply, val_main_v46_apply,
    val_main_v55_apply, val_main_v54_apply, val_main_v52_apply, val_main_v51_apply, val_main_v53_apply,
    val_main_v59_apply, val_main_v58_apply, val_main_call5_v0_apply, val_main_call5_cst_apply]
  rw [widx_0, widx_1, widx_2, bidx, xidx_0, xidx_1, xidx_2]
  rfl

end Cert.ReferenceIdeal.Stage1

end
-- ==== Proof.RefTaps2.lean ====
/-
  The reference's latitude layer, read entry by entry. The reference spells the layer as host operations: it slices the
  three columns of the `2880 × 3` weight array, broadcasts each down the 256 rows, multiplies by the three unit-offset
  slices of the padded `256 × 2882` array, adds left to right, adds the broadcast bias and takes the maximum with a zero
  array. Chaining the read-at-an-index lemmas of its stages, entry `(p, q)` of the result is the clamped three-tap sum
  of `Cert.Taps` in its weight-array spelling, with the padded array left as it is computed (`val_main_v67`).
-/
import proofs.«167332_j3393024163963_1_alg».proof.Proof.Gen.ReferenceIdeal.Read
import proofs.«167332_j3393024163963_1_alg».proof.Proof.TapSpec

noncomputable section

namespace Cert.ReferenceIdeal.Stage2

open Cert.ReferenceIdeal Cert.ReferenceIdeal.Gen Cert.ReferenceIdeal.Read Idealize.ShloMosaic Idealize.ShloMosaic.TcCoe Idealize.SL.Sem Idealize.ShloMosaic.ValueIdx

variable {F : FTy → Type} [FloatOps F]

/-! ## The composed index maps of the stages, at `(p, q)` -/

/-- Column 0 of the weights, reshaped to a vector, as a row, broadcast down the rows: entry `(q, 0)`. -/
theorem widx_0 (p : Fin 256) (q : Fin 2880) :
    idx_main_v68 (idx_main_v69 (idx_main_v71 (idx_main_v72 (ix2 p q)))) = ix2 q (0 : Fin 3) := by
  funext a; apply Fin.ext
  match a with
  | ⟨0, _⟩ => show q.val / 1 = q.val; omega
  | ⟨1, _⟩ => show 0 = 0; rfl

/-- Column 1: entry `(q, 1)`. -/
theorem widx_1 (p : Fin 256) (q : Fin 2880) :
    idx_main_v74 (idx_main_v75 (idx_main_v77 (idx_main_v78 (ix2 p q)))) = ix2 q (1 : Fin 3) := by
  funext a; apply Fin.ext
  match a with
  | ⟨0, _⟩ => show q.val / 1 = q.val; omega
  | ⟨1, _⟩ => show 1 + 0 = 1; rfl

/-- Column 2: entry `(q, 2)`. -/
theorem widx_2 (p : Fin 256) (q : Fin 2880) :
    idx_main_v81 (idx_main_v82 (idx_main_v84 (idx_main_v85 (ix2 p q)))) = ix2 q (2 : Fin 3) := by
  funext a; apply Fin.ext
  match a with
  | ⟨0, _⟩ => show q.val / 1 = q.val; omega
  | ⟨1, _⟩ => show 2 + 0 = 2; rfl

/-- The bias as a row, broadcast down the rows: entry `q`. -/
theorem bidx (p : Fin 256) (q : Fin 2880) : idx_main_v88 (idx_main_v89 (ix2 p q)) = ix1 q := by
  funext a; apply Fin.ext
  match a with
  | ⟨0, _⟩ => rfl

/-- The three unit-offset slices of the padded array: entries `(p, q)`, `(p, q + 1)`, `(p, q + 2)`. -/
theorem xidx_0 (p : Fin 256) (q : Fin 2880) : idx_main_v70 (ix2 p q) = ix2 p (⟨q.val, by omega⟩ : Fin 2882) := by
  funext a; apply Fin.ext
  match a with
  | ⟨0, _⟩ => rfl
  | ⟨1, _⟩ => rfl

theorem xidx_1 (p : Fin 256) (q : Fin 2880) : idx_main_v76 (ix2 p q) = ix2 p (⟨q.val + 1, by omega⟩ : Fin 2882) := by
  funext a; apply Fin.ext
  match a with
  | ⟨0, _⟩ => rfl
  | ⟨1, _⟩ => show 1 + q.val = q.val + 1; omega

theorem xidx_2 (p : Fin 256) (q : Fin 2880) : idx_main_v83 (ix2 p q) = ix2 p (⟨q.val + 2, by omega⟩ : Fin 2882) := by
  funext a; apply Fin.ext
  match a with
  | ⟨0, _⟩ => rfl
  | ⟨1, _⟩ => show 2 + q.val = q.val + 2; omega

theorem hL : 2880 + 2 ≤ 2882 := by decide

/-! ## The layer -/

/-- The reference's layer result is the array of clamped three-tap sums of its padded array, its weights and its bias. -/
theorem value (x0 : (⟨S256x15x64x128x1, .f32⟩ : BufTy).Contents (Elt F)) (x1 : (⟨S3584x3, .f32⟩ : BufTy).Contents (Elt F)) (x2 : (⟨S3584, .f32⟩ : BufTy).Contents (Elt F)) (x3 : (⟨S2720x3, .f32⟩ : BufTy).Contents (Elt F)) (x4 : (⟨S2720, .f32⟩ : BufTy).Contents (Elt F)) (x5 : (⟨S2880x3, .f32⟩ : BufTy).Contents (Elt F)) (x6 : (⟨S2880, .f32⟩ : BufTy).Contents (Elt F)) :
    val_main_v91 (F := F) x0 x1 x2 x3 x4 x5 x6
      = Cert.Taps.tapGW (B := 256) (L := 2880) (L2 := 2882) hL (val_main_v67 (F := F) x0 x1 x2 x3 x4) x5 x6 := by
  funext i
  obtain ⟨p, q, rfl⟩ : ∃ (p : Fin 256) (q : Fin 2880), i = ix2 p q := ⟨i 0, i 1, eq_ix2 i⟩
  rw [Cert.Taps.tapGW_apply]
  rw [val_main_v91_apply, val_main_v90_apply, val_main_v87_apply, val_main_v80_apply, val_main_v73_apply, val_main_v79_apply, val_main_v86_apply,
    val_main_v72_apply, val_main_v71_apply, val_main_v69_apply, val_main_v68_apply, val_main_v70_apply,
    val_main_v78_apply, val_main_v77_apply, val_main_v75_apply, val_main_v74_apply, val_main_v76_apply,
    val_main_v85_apply, val_main_v84_apply, val_main_v82_apply, val_main_v81_apply, val_main_v83_apply,
    val_main_v89_apply, val_main_v88_apply, val_main_call8_v0_apply, val_main_call8_cst_apply]
  rw [widx_0, widx_1, widx_2, bidx, xidx_0, xidx_1, xidx_2]
  rfl

end Cert.ReferenceIdeal.Stage2

end
-- ==== Proof.KChain.lean ====
/-
  The kernel program's result array, followed through @main. Between the launch and the return the buffers' contents
  pass nineteen boundaries (`W0` … `W19` of the generated frame): stretches of host operations, each a fold of pure
  functions, and the three regions, each leaving its output array at the clamped three-tap sums of its two input arrays
  (`Region0.value`, `Region1.value`, `Region2.value`) and every other buffer as it was. The host operations before,
  between and after the regions are, operation for operation, the ones the reference applies (the pooling mean, the
  zero pads, the transposes, reshapes and crops, the final broadcast and reshape), so each boundary value is named by
  the reference's own stage function of the argument arrays and never opened; the only thing the kernel program does
  differently is to stack each layer's weights and bias into one `4 × L` array (`Cert.Taps.stack`), on which the two
  spellings of the layer agree (`Cert.Taps.tapG_stack`). The last lemma, `result`, says the result buffer at the last
  boundary is the reference's result term of the argument arrays. At any float instance.
-/
import proofs.«167332_j3393024163963_1_alg».proof.Proof.Gen.KernelIdeal.Frame
import proofs.«167332_j3393024163963_1_alg».proof.Proof.Gen.ReferenceIdeal.Read
import proofs.«167332_j3393024163963_1_alg».proof.Proof.TapSpec
import proofs.«167332_j3393024163963_1_alg».proof.Proof.KRegion0
import proofs.«167332_j3393024163963_1_alg».proof.Proof.KRegion1
import proofs.«167332_j3393024163963_1_alg».proof.Proof.KRegion2
import proofs.«167332_j3393024163963_1_alg».proof.Proof.RefTaps0
import proofs.«167332_j3393024163963_1_alg».proof.Proof.RefTaps1
import proofs.«167332_j3393024163963_1_alg».proof.Proof.RefTaps2
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.Read (val_main_v7 val_main_v31 val_main_v37 val_main_v61 val_main_v67 val_main_v91 val_main_v97)

variable {F : FTy → Type} [FloatOps F]
variable (m : (ℓ : Loc nD τ sig) → Buf (Elt F) ℓ) (ρ : Dev nD → PrngReg)

/-- The argument arrays as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)

/-! ## Before region 0 -/

/-- The pooled, padded, transposed, flattened and padded input of the depth layer: the reference's own stage. -/
theorem W5_v7 (c : Dev nD) : W5 m ρ c (Proc.devRef .tc main_v7) = val_main_v7 (F := F) (a0 m c) := by
  after_results
  rfl

/-- The depth layer's weights and bias, stacked. -/
theorem W5_v10 (c : Dev nD) : W5 m ρ c (Proc.devRef .tc main_v10)
    = Cert.Taps.stack (L := 3584) (a1 m c) (a2 m c) transposes_S3584x3_S3x3584_1_0 shapeCasts_S3584_S1x3584 concatenates_S3x3584_S1x3584_S4x3584_d0 := by
  after_results
  rfl

/-! ## Region 0 -/

/-- Region 0 leaves the reference's depth-layer result in its output array. -/
theorem W6_v11 (c : Dev nD) : W6 m ρ c (Proc.devRef .tc main_v11) = val_main_v31 (F := F) (a0 m c) (a1 m c) (a2 m c) := by
  refine (W6_arr m ρ c 2).trans ?_
  refine (Region0.value (V5 m ρ) c).trans ?_
  show Cert.Taps.tapG Region0.hL (W5 m ρ c (Proc.devRef .tc main_v7)) (W5 m ρ c (Proc.devRef .tc main_v10)) = _
  rw [W5_v7, W5_v10, Cert.Taps.tapG_stack]
  exact (Cert.ReferenceIdeal.Stage0.value (a0 m c) (a1 m c) (a2 m c)).symm

/-! ## Between regions 0 and 1 -/

/-- The depth layer's result reshaped, transposed back, cropped, padded along longitude, flattened and padded: the
    reference's own stage. -/
theorem W11_v17 (c : Dev nD) : W11 m ρ c (Proc.devRef .tc main_v17) = val_main_v37 (F := F) (a0 m c) (a1 m c) (a2 m c) := by
  after_results
  rw [W6_v11]
  rfl

/-- The longitude layer's weights and bias, stacked: region 0 and the operations before it leave both arguments alone. -/
theorem W11_v20 (c : Dev nD) : W11 m ρ c (Proc.devRef .tc main_v20)
    = Cert.Taps.stack (L := 2720) (a3 m c) (a4 m c) transposes_S2720x3_S3x2720_1_0 shapeCasts_S2720_S1x2720 concatenates_S3x2720_S1x2720_S4x2720_d0 := by
  after_results
  rw [W6_of_ne m ρ c main_arg3 (by decide), W6_of_ne m ρ c main_arg4 (by decide)]
  after_results
  rfl

/-! ## Region 1 -/

/-- Region 1 leaves the reference's longitude-layer result in its output array. -/
theorem W12_v21 (c : Dev nD) :
    W12 m ρ c (Proc.devRef .tc main_v21) = val_main_v61 (F := F) (a0 m c) (a1 m c) (a2 m c) (a3 m c) (a4 m c) := by
  refine (W12_arr m ρ c 2).trans ?_
  refine (Region1.value (V11 m ρ) c).trans ?_
  show Cert.Taps.tapG Region1.hL (W11 m ρ c (Proc.devRef .tc main_v17)) (W11 m ρ c (Proc.devRef .tc main_v20)) = _
  rw [W11_v17, W11_v20, Cert.Taps.tapG_stack]
  exact (Cert.ReferenceIdeal.Stage1.value (a0 m c) (a1 m c) (a2 m c) (a3 m c) (a4 m c)).symm

/-! ## Between regions 1 and 2 -/

/-- The longitude layer's result reshaped, cropped, padded along latitude, transposed, flattened and padded: the
    reference's own stage. -/
theorem W17_v27 (c : Dev nD) :
    W17 m ρ c (Proc.devRef .tc main_v27) = val_main_v67 (F := F) (a0 m c) (a1 m c) (a2 m c) (a3 m c) (a4 m c) := by
  after_results
  rw [W12_v21]
  rfl

/-- The latitude layer's weights and bias, stacked: the two regions and the operations before leave both arguments alone. -/
theorem W17_v30 (c : Dev nD) : W17 m ρ c (Proc.devRef .tc main_v30)
    = Cert.Taps.stack (L := 2880) (a5 m c) (a6 m c) transposes_S2880x3_S3x2880_1_0 shapeCasts_S2880_S1x2880 concatenates_S3x2880_S1x2880_S4x2880_d0 := by
  after_results
  rw [W12_of_ne m ρ c main_arg5 (by decide), W12_of_ne m ρ c main_arg6 (by decide)]
  after_results
  rw [W6_of_ne m ρ c main_arg5 (by decide), W6_of_ne m ρ c main_arg6 (by decide)]
  after_results
  rfl

/-! ## Region 2 -/

/-- Region 2 leaves the reference's latitude-layer result in its output array. -/
theorem W18_v31 (c : Dev nD) :
    W18 m ρ c (Proc.devRef .tc main_v31)
      = val_main_v91 (F := F) (a0 m c) (a1 m c) (a2 m c) (a3 m c) (a4 m c) (a5 m c) (a6 m c) := by
  refine (W18_arr m ρ c 2).trans ?_
  refine (Region2.value (V17 m ρ) c).trans ?_
  show Cert.Taps.tapG Region2.hL (W17 m ρ c (Proc.devRef .tc main_v27)) (W17 m ρ c (Proc.devRef .tc main_v30)) = _
  rw [W17_v27, W17_v30, Cert.Taps.tapG_stack]
  exact (Cert.ReferenceIdeal.Stage2.value (a0 m c) (a1 m c) (a2 m c) (a3 m c) (a4 m c) (a5 m c) (a6 m c)).symm

/-! ## After region 2 -/

/-- The result buffer at the last boundary: the latitude layer's result reshaped, transposed back, cropped and repeated
    to the input's resolution, which is the reference's result term of the argument arrays. -/
theorem result (c : Dev nD) :
    W19 m ρ c (Proc.devRef .tc main_v37)
      = val_main_v97 (F := F) (a0 m c) (a1 m c) (a2 m c) (a3 m c) (a4 m c) (a5 m c) (a6 m c) := by
  after_results
  rw [W18_v31]
  rfl

end Cert.KernelIdeal.Chain

end
-- ==== Proof.lean ====
/-
  The certificate of a three-layer locally connected network on a pooled grid. Both programs pool the
  `256 × 15 × 64 × 128 × 1` input by means over `3 × 4 × 4` boxes, then apply three times, along the depth, longitude and
  latitude axes in turn, a zero pad, a flattening to rows, a layer

      y[p, q] = max (w₀[q] · x[p, q] + w₁[q] · x[p, q + 1] + w₂[q] · x[p, q + 2] + b[q]) 0

  over the zero-padded rows, and the inverse reshaping with a crop; at the end each entry is repeated back to the input's
  resolution. The kernel program computes each layer in a pallas_call over two row blocks of 128 rows, from the padded
  rows and the layer's weights and bias stacked as the four rows of one array; the reference computes it by host
  operations on column slices of the weights. The products and sums are associated the same way on both sides, so the
  two layers agree entry by entry at every float instance, with no algebraic law used and the precondition never
  opened (`Cert.Taps`; the kernel side in `Region0` … `Region2`, the reference side in `Stage0` … `Stage2`); every other
  operation is the same host operation in both programs and is carried as the reference's own stage function
  (`Cert.KernelIdeal.Chain.result`). The idealization rewrote nothing, so `preserves` is trivial; the frames are the
  generated ones, the reference's its generated run with the result dropped.
-/
import proofs.«167332_j3393024163963_1_alg».proof.Defs
import proofs.«167332_j3393024163963_1_alg».proof.Proof.Gen.Kernel
import proofs.«167332_j3393024163963_1_alg».proof.Proof.Gen.Kernel.Frame
import proofs.«167332_j3393024163963_1_alg».proof.Proof.Gen.KernelIdeal
import proofs.«167332_j3393024163963_1_alg».proof.Proof.Gen.KernelIdeal.Frame
import proofs.«167332_j3393024163963_1_alg».proof.Proof.Gen.ReferenceIdeal
import proofs.«167332_j3393024163963_1_alg».proof.Proof.Gen.ReferenceIdeal.Run
import proofs.«167332_j3393024163963_1_alg».proof.Proof.Gen.ReferenceIdeal.Read
import proofs.«167332_j3393024163963_1_alg».proof.Proof.Gen.Pre_finite_inputs
import proofs.«167332_j3393024163963_1_alg».proof.Proof.RunNamed
import proofs.«167332_j3393024163963_1_alg».proof.Proof.KChain
import Idealize.ShloMosaic.Adequacy
import Idealize.ShloMosaic.Init

noncomputable section

namespace Cert.Proof

open Idealize.ShloMosaic Idealize.SL.Sem

/-- The word-level kernel program runs and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference, a program of host operations only, runs: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the reference's result term of the argument arrays in their result buffers: the
    kernel program by following its result through @main (`Chain.result`), the reference by its generated run, the
    arguments' agreement rewritten. -/
theorem algebraic : Cert.algebraic_KernelIdeal_ReferenceIdeal := by
  intro m ρ m' ρ' _ hagree
  refine ⟨fun c => Cert.ReferenceIdeal.Read.val_main_v97 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Chain.result (F := Ideal) m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v97_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
